-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x10000x4 : Shape := ⟨4, ![8, 8, 10000, 4]⟩
abbrev S2x320000 : Shape := ⟨2, ![2, 320000]⟩
abbrev S320000 : Shape := ⟨1, ![320000]⟩
abbrev S_ : Shape := ⟨0, ![]⟩

class Facts : Prop where
  bcast_S_S8x8x10000x4 : S_.BroadcastsInDim S8x8x10000x4 (![] : Fin 0 → Fin S8x8x10000x4.rank)
  reducesTo_S8x8x10000x4_S_d0_1_2_3 : S8x8x10000x4.ReducesTo [0, 1, 2, 3] S_
  h_S_ : 0 < S_.numel
  bcast_S_S320000 : S_.BroadcastsInDim S320000 (![] : Fin 0 → Fin S320000.rank)
  reducesTo_S320000_S_d0 : S320000.ReducesTo [0] S_
  bcast_S_S2x320000 : S_.BroadcastsInDim S2x320000 (![] : Fin 0 → Fin S2x320000.rank)
  reducesTo_S2x320000_S_d0_1 : S2x320000.ReducesTo [0, 1] S_

variable [Facts]

def fn {F : FTy → Type} [FloatOps F] (main_arg0 : FVec F S8x8x10000x4 .f32) (main_arg1 : IVec S2x320000 32) (main_arg2 : FVec F S320000 .f32) : IVec S_ 1 :=
  let main_v0 : FVec F S8x8x10000x4 .f32 := Host.absf main_arg0
  let main_cst : FVec F S_ .f32 := constant S_ .f32 0x7F800000#32
  let main_v1 : FVec F S8x8x10000x4 .f32 := broadcastInDim S8x8x10000x4 ![] bcast_S_S8x8x10000x4 main_cst
  let main_v2 : IVec S8x8x10000x4 1 := cmpf .olt main_v0 main_v1
  let main_c : IVec S_ 1 := constantI S_ 1 1#1
  let main_v3 : IVec S_ 1 := (fun x v => Host.reduce IntOp.andi x v reducesTo_S8x8x10000x4_S_d0_1_2_3 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_c_2 : IVec S_ 32 := constantI S_ 32 0#32
  let main_v9 : IVec S2x320000 32 := broadcastInDim S2x320000 ![] bcast_S_S2x320000 main_c_2
  let main_v10 : IVec S2x320000 1 := cmpi .sge main_arg1 main_v9
  let main_c_3 : IVec S_ 32 := constantI S_ 32 10000#32
  let main_v11 : IVec S2x320000 32 := broadcastInDim S2x320000 ![] bcast_S_S2x320000 main_c_3
  let main_v12 : IVec S2x320000 1 := cmpi .slt main_arg1 main_v11
  let main_v13 : IVec S2x320000 1 := andi main_v10 main_v12
  let main_c_4 : IVec S_ 1 := constantI S_ 1 1#1
  let main_v14 : IVec S_ 1 := (fun x v => Host.reduce IntOp.andi x v reducesTo_S2x320000_S_d0_1 h_S_) main_v13 main_c_4
  let main_v15 : IVec S_ 1 := andi main_v8 main_v14
  main_v15
-- ==== Kernel.lean ====
abbrev S8x8x10000x4 : Shape := ⟨4, ![8, 8, 10000, 4]⟩
abbrev S2x320000 : Shape := ⟨2, ![2, 320000]⟩
abbrev S320000 : Shape := ⟨1, ![320000]⟩
abbrev S1x320000 : Shape := ⟨2, ![1, 320000]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S10000x8x8x4 : Shape := ⟨4, ![10000, 8, 8, 4]⟩
abbrev S10000x256 : Shape := ⟨2, ![10000, 256]⟩
abbrev S10240x10240 : Shape := ⟨2, ![10240, 10240]⟩
abbrev S10240x256 : Shape := ⟨2, ![10240, 256]⟩
abbrev S512x10240 : Shape := ⟨2, ![512, 10240]⟩
abbrev S512x256 : Shape := ⟨2, ![512, 256]⟩

abbrev nBuf : Space → Nat
  | .hbm => 41
  | .vmem => 5
  | .smem => 0
  | _ => 0

abbrev bufTy : (tb : Table) → Fin (tcTables nBuf tb) → BufTy
  | .hbm, ⟨0, _⟩ => ⟨S8x8x10000x4, .f32⟩
  | .hbm, ⟨1, _⟩ => ⟨S2x320000, .i32⟩
  | .hbm, ⟨2, _⟩ => ⟨S320000, .f32⟩
  | .hbm, ⟨3, _⟩ => ⟨S1x320000, .i32⟩
  | .hbm, ⟨4, _⟩ => ⟨S320000, .i32⟩
  | .hbm, ⟨5, _⟩ => ⟨S1x320000, .i32⟩
  | .hbm, ⟨6, _⟩ => ⟨S320000, .i32⟩
  | .hbm, ⟨7, _⟩ => ⟨S_, .f32⟩
  | .hbm, ⟨8, _⟩ => ⟨S10000x10000, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x1, .i32⟩
  | .hbm, ⟨25, _⟩ => ⟨S320000x2, .i32⟩
  | .hbm, ⟨26, _⟩ => ⟨S10000x10000, .f32⟩
  | .hbm, ⟨27, _⟩ => ⟨S10000x10000, .bf16⟩
  | .hbm, ⟨28, _⟩ => ⟨S10000x8x8x4, .f32⟩
  | .hbm, ⟨29, _⟩ => ⟨S10000x256, .f32⟩
  | .hbm, ⟨30, _⟩ => ⟨S10000x256, .bf16⟩
  | .hbm, ⟨31, _⟩ => ⟨S_, .i32⟩
  | .hbm, ⟨32, _⟩ => ⟨S_, .bf16⟩
  | .hbm, ⟨33, _⟩ => ⟨S10240x10240, .bf16⟩
  | .hbm, ⟨34, _⟩ => ⟨S_, .i32⟩
  | .hbm, ⟨35, _⟩ => ⟨S_, .bf16⟩
  | .hbm, ⟨36, _⟩ => ⟨S10240x256, .bf16⟩
  | .hbm, ⟨37, _⟩ => ⟨S10240x256, .f32⟩
  | .hbm, ⟨38, _⟩ => ⟨S10000x256, .f32⟩
  | .hbm, ⟨39, _⟩ => ⟨S10000x8x8x4, .f32⟩
  | .hbm, ⟨40, _⟩ => ⟨S8x8x10000x4, .f32⟩
  | .local _ .vmem, ⟨0, _⟩ => ⟨S512x10240, .bf16⟩
  | .local _ .vmem, ⟨1, _⟩ => ⟨S512x10240, .bf16⟩
  | .local _ .vmem, ⟨2, _⟩ => ⟨S10240x256, .bf16⟩
  | .local _ .vmem, ⟨3, _⟩ => ⟨S512x256, .f32⟩
  | .local _ .vmem, ⟨4, _⟩ => ⟨S512x256, .f32⟩
  | _, _ => ⟨S8x8x10000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_c : Ref sig .tc := ⟨.hbm, 9, rfl⟩
abbrev main_call0_v5 : Ref sig .tc := ⟨.hbm, 10, rfl⟩
abbrev main_call0_v6 : Ref sig .tc := ⟨.hbm, 11, rfl⟩
abbrev main_call0_c_0 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c_1 : Ref sig .tc := ⟨.hbm, 16, rfl⟩
abbrev main_call0_v10 : Ref sig .tc := ⟨.hbm, 17, rfl⟩
abbrev main_call0_v11 : Ref sig .tc := ⟨.hbm, 18, rfl⟩
abbrev main_call0_c_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_c_3 : Ref sig .tc := ⟨.hbm, 31, rfl⟩
abbrev main_call0_call0_v0 : Ref sig .tc := ⟨.hbm, 32, rfl⟩
abbrev main_call0_v23 : Ref sig .tc := ⟨.hbm, 33, rfl⟩
abbrev main_call0_c_4 : Ref sig .tc := ⟨.hbm, 34, rfl⟩
abbrev main_call0_call1_v0 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bitsLt_bf16_f32 : FTy.bits .bf16 < FTy.bits .f32
  transposes_S8x8x10000x4_S10000x8x8x4_2_0_1_3 : S8x8x10000x4.Transposes [2, 0, 1, 3] S10000x8x8x4
  shapeCasts_S10000x8x8x4_S10000x256 : S10000x8x8x4.ShapeCasts S10000x256
  pads_S10000x10000_S10240x10240_02400_02400 : S10000x10000.Pads (![0, 0] : Fin 2 → Nat) ![240, 240] ![0, 0] S10240x10240
  h_S_ : 0 < S_.numel
  pads_S10000x256_S10240x256_02400_000 : S10000x256.Pads (![0, 0] : Fin 2 → Nat) ![240, 0] ![0, 0] S10240x256
  slices_S10240x256_S10000x256_0_0 : S10240x256.Slices ![0, 0] S10000x256
  shapeCasts_S10000x256_S10000x8x8x4 : S10000x256.ShapeCasts S10000x8x8x4
  transposes_S10000x8x8x4_S8x8x10000x4_1_2_0_3 : S10000x8x8x4.Transposes [1, 2, 0, 3] S8x8x10000x4
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S512x256_S512x256_0_0 : ∀ a, (![0, 0] : Fin 2 → Nat) a + S512x256.size a ≤ S512x256.size a
  h_S512x256 : 0 < S512x256.numel
  scatter_S10000x10000_S320000x2_S320000_n_01_01_1_wf : ScatterDims.WF S10000x10000 S320000x2 S320000 [] [0, 1] [0, 1] 1
  dot_S512x10240_S10240x256_S512x256_1_0_0_1_n_n_wf : DotDims.WF S512x10240 S10240x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x10240.size a ≤ S10240x10240.size a
  hwx0_0 : ∀ i : grid0.Coords, EltTy.bits .bf16 = 32 ∨ (Rect.block (s := S10240x10240) S512x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x256.size a ≤ S10240x256.size a
  hwx0_1 : ∀ i : grid0.Coords, EltTy.bits .bf16 = 32 ∨ (Rect.block (s := S10240x256) S10240x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S10240x256.size a
  hwx0_2 : ∀ i : grid0.Coords, EltTy.bits .f32 = 32 ∨ (Rect.block (s := S10240x256) S512x256.size (cc0_transform_2 i) (hinb0_2 i)).WholeWords (EltTy.packing .f32)

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def dot_S512x10240_S10240x256_S512x256_1_0_0_1_n_n : DotDims S512x10240 S10240x256 S512x256 where
  lhsContracting := [1]
  rhsContracting := [0]
  lhsNonContracting := [0]
  rhsNonContracting := [1]
  lhsBatch := []
  rhsBatch := []
  wf := dot_S512x10240_S10240x256_S512x256_1_0_0_1_n_n_wf

abbrev win0_0 : Pipeline.Window sig grid0 :=
  Pipeline.Window.ofSpec (Memref.whole main_call0_v23) S512x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v24) S10240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v25) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8x10000x4 : Shape := ⟨4, ![8, 8, 10000, 4]⟩
abbrev S2x320000 : Shape := ⟨2, ![2, 320000]⟩
abbrev S320000 : Shape := ⟨1, ![320000]⟩
abbrev S10000x8x8x4 : Shape := ⟨4, ![10000, 8, 8, 4]⟩
abbrev S1x320000 : Shape := ⟨2, ![1, 320000]⟩
abbrev S_ : Shape := ⟨0, ![]⟩
abbrev S320000x1 : Shape := ⟨2, ![320000, 1]⟩
abbrev S320000x8x8x4 : Shape := ⟨4, ![320000, 8, 8, 4]⟩
abbrev S320000x1x1x1 : Shape := ⟨4, ![320000, 1, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S8x8x10000x4, .f32⟩
  | .hbm, ⟨1, _⟩ => ⟨S2x320000, .i32⟩
  | .hbm, ⟨2, _⟩ => ⟨S320000, .f32⟩
  | .hbm, ⟨3, _⟩ => ⟨S10000x8x8x4, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x8x8x4, .f32⟩
  | .hbm, ⟨17, _⟩ => ⟨S320000x1x1x1, .f32⟩
  | .hbm, ⟨18, _⟩ => ⟨S320000x8x8x4, .f32⟩
  | .hbm, ⟨19, _⟩ => ⟨S320000x8x8x4, .f32⟩
  | .hbm, ⟨20, _⟩ => ⟨S_, .f32⟩
  | .hbm, ⟨21, _⟩ => ⟨S10000x8x8x4, .f32⟩
  | .hbm, ⟨22, _⟩ => ⟨S320000x1, .i32⟩
  | .hbm, ⟨23, _⟩ => ⟨S10000x8x8x4, .f32⟩
  | .hbm, ⟨24, _⟩ => ⟨S8x8x10000x4, .f32⟩
  | _, _ => ⟨S8x8x10000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S8x8x10000x4_S10000x8x8x4_2_0_1_3 : S8x8x10000x4.Transposes [2, 0, 1, 3] S10000x8x8x4
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S320000_S320000x1x1x1_0 : S320000.BroadcastsInDim S320000x1x1x1 (![0] : Fin 1 → Fin S320000x1x1x1.rank)
  bcast_S320000x1x1x1_S320000x8x8x4_0_1_2_3 : S320000x1x1x1.BroadcastsInDim S320000x8x8x4 (![0, 1, 2, 3] : Fin 4 → Fin S320000x8x8x4.rank)
  bcast_S_S10000x8x8x4 : S_.BroadcastsInDim S10000x8x8x4 (![] : Fin 0 → Fin S10000x8x8x4.rank)
  transposes_S10000x8x8x4_S8x8x10000x4_1_2_0_3 : S10000x8x8x4.Transposes [1, 2, 0, 3] S8x8x10000x4
  gather_S10000x8x8x4_S320000x1_S320000x8x8x4_123_0_n_n_0_1_1884_wf : GatherDims.WF S10000x8x8x4 S320000x1 S320000x8x8x4 [1, 2, 3] [0] [] [0] [] 1 ![1, 8, 8, 4]
  scatter_S10000x8x8x4_S320000x1_S320000x8x8x4_123_0_0_1_wf : ScatterDims.WF S10000x8x8x4 S320000x1 S320000x8x8x4 [1, 2, 3] [0] [0] 1

variable [Facts₀]

def gather_S10000x8x8x4_S320000x1_S320000x8x8x4_123_0_n_n_0_1_1884 : GatherDims S10000x8x8x4 S320000x1 S320000x8x8x4 where
  offsetDims := [1, 2, 3]
  collapsedSliceDims := [0]
  operandBatchingDims := []
  startIndicesBatchingDims := []
  startIndexMap := [0]
  indexVectorDim := 1
  sliceSizes := ![1, 8, 8, 4]
  wf := gather_S10000x8x8x4_S320000x1_S320000x8x8x4_123_0_n_n_0_1_1884_wf
def scatter_S10000x8x8x4_S320000x1_S320000x8x8x4_123_0_0_1 : ScatterDims S10000x8x8x4 S320000x1 S320000x8x8x4 where
  updateWindowDims := [1, 2, 3]
  insertedWindowDims := [0]
  scatterDimsToOperandDims := [0]
  indexVectorDim := 1
  wf := scatter_S10000x8x8x4_S320000x1_S320000x8x8x4_123_0_0_1_wf

class Facts : Prop extends Facts₀ where

variable [Facts]
-- ==== Proof.PreFacts.lean ====
import proofs.«401143_j89275190215328_2_alg».proof.Pre_finite_inputs
import Idealize.ShloMosaic.PureOps.Ideal
import Idealize.ShloMosaic.Lib.ReduceAll
import Idealize.ShloMosaic.Lib.ValueIdx
import Idealize.ShloMosaic.Lib.IdealHost

/-!
The precondition read back. It states that three all-reductions are true: |V| < +∞ at every entry, |w| < +∞ at
every entry, and 0 ≤ edge_index < 10000 (signed) at every entry. Over the extended reals |x| is max x (-x), which is
+∞ at both infinities, so |x| < +∞ says exactly that x is a real number.
-/
noncomputable section
namespace Cert.PreFacts
open Idealize.ShloMosaic
open Cert.Pre_finite_inputs (S_)
variable [Cert.Pre_finite_inputs.Facts]

/-- The rank-0 shape has one index. -/
local instance subsingleton_scalar_idx : Subsingleton S_.Idx := ⟨fun a b => funext fun d => d.elim0⟩

/-- An extended real whose absolute value max x (-x) lies strictly below the f32 pattern of +∞ is a real number:
    at ⊥ and at ⊤ the absolute value is ⊤, which is not below ⊤. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One element of the comparison |x| < +∞ (the bound a scalar broadcast to the array's shape) being true says that
    element of x is a real number. -/
private theorem real_of_elem {T : Shape} (hT : S_.BroadcastsInDim T ![]) (x : FVec Ideal T .f32) (i : T.Idx)
    (e : cmpf .olt (Host.absf x) (broadcastInDim T ![] hT (constant S_ .f32 0x7F800000#32)) i = 1#1) :
    ∃ r : ℝ, x i = (r : EReal) := by
  refine real_of_abs_lt (x i) ?_
  have hb := ValueIdx.broadcastInDim_scalar_apply hT (constant (F := Ideal) S_ .f32 0x7F800000#32) i
  change Ideal.cmp .olt (max (x i) (-(x i)))
    (broadcastInDim T ![] hT (constant (F := Ideal) S_ .f32 0x7F800000#32) i) = 1#1 at e
  rw [hb] at e
  exact e

/-- Under the precondition every entry of V and of w is a real number, and every entry of edge_index, read as a signed integer, lies in [0, 10000). -/
theorem of_pre (V : FVec Ideal Cert.Pre_finite_inputs.S8x8x10000x4 .f32) (ei : IVec Cert.Pre_finite_inputs.S2x320000 32)
    (w : FVec Ideal Cert.Pre_finite_inputs.S320000 .f32)
    (h : Cert.Pre_finite_inputs.fn (F := Ideal) V ei w = fun _ => 1#1) :
    (∀ i, ∃ r : ℝ, V i = (r : EReal)) ∧ (∀ i, ∃ r : ℝ, w i = (r : EReal))
      ∧ (∀ i, 0 ≤ (ei i).toInt ∧ (ei i).toInt < 10000) := by
  -- the result's one element, as the conjunction of the three all-reductions
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_elem _ V i (Host.reduce_andi_all _ _ _ _ _ h1 i)
  · exact real_of_elem _ w i (Host.reduce_andi_all _ _ _ _ _ h2 i)
  · -- the element at i of (edge_index ≥ 0) ∧ (edge_index < 10000), both bounds scalars broadcast
    have e := Host.reduce_andi_all _ _ _ _ _ h3 i
    obtain ⟨ea, eb⟩ := IntOp.andi_eq_one.1 e
    have ha := IntOp.cmpi_sge.1 ea
    have hb := IntOp.cmpi_slt.1 eb
    rw [ValueIdx.broadcastInDim_scalar_apply] at ha hb
    have z : (0#32 : BitVec 32).toInt = 0 := by decide
    have t : (10000#32 : BitVec 32).toInt = 10000 := by decide
    exact ⟨z ▸ ha, t ▸ hb⟩

end Cert.PreFacts
end
-- ==== Proof.LibRows4.lean ====
/-
  Three reads at an index, over the extended reals / any element type, with variable extents.

  (1) ENTRY SCATTER-ADD BY INDEX PAIRS. A float scatter-add of `n` scalars into an `[N, M]` table by an `[n, 2]` array of
  index pairs (no update window axis, both operand axes inserted window axes, the two components of the index vector naming
  operand axes 0 and 1, the index vector along axis 1 of the scatter indices). The result at `(r, k)` is the operand there
  plus the sum of the updates `p` whose pair `(idx[p,0], idx[p,1])`, read signed and NOT clamped, is `(r, k)`; an update
  whose pair is outside the table lands nowhere.

  (2) ROW SCATTER-ADD INTO A RANK-4 TABLE. A float scatter-add of `n` blocks `[A, B, C]` into an `[N, A, B, C]` table by an
  `[n, 1]` column of row numbers (update window axes 1, 2, 3, inserted window axis 0, the one scatter index naming operand
  axis 0). The result at `(k, a, b, c)` is the operand there plus the sum of the updates `(p, a, b, c)` over the rows `p`
  whose row number, read signed and NOT clamped, is `k`.

  (3) ROW GATHER FROM A RANK-4 TABLE. A gather of whole blocks `[A, B, C]` of an `[N, A, B, C]` table by an `[n, 1]` column of
  row numbers (offset axes 1, 2, 3, collapsed axis 0, start index map `[0]`, slices of one row). Read at `(p, a, b, c)` it is
  the table at `(r, a, b, c)`, where `r` is start index `p` read signed and clamped into `[0, N − 1]`.
-/
import Idealize.ShloMosaic.PureOps
import Idealize.ShloMosaic.PureOps.Ideal
import Idealize.ShloMosaic.Lib.ValueIdx

namespace Idealize.ShloMosaic.Rows4

open Idealize.ShloMosaic Idealize.ShloMosaic.ValueIdx

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-! ## (1) Entry scatter-add by index pairs -/

/-- The dimension numbers of an entry scatter into an `[N, M]` table by an `[n, 2]` array of index pairs. -/
abbrev scatterPairDims (N M n : Nat)
    (wf : ScatterDims.WF ⟨2, ![N, M]⟩ ⟨2, ![n, 2]⟩ ⟨1, ![n]⟩ [] [0, 1] [0, 1] 1) :
    ScatterDims ⟨2, ![N, M]⟩ ⟨2, ![n, 2]⟩ ⟨1, ![n]⟩ where
  updateWindowDims := []
  insertedWindowDims := [0, 1]
  scatterDimsToOperandDims := [0, 1]
  indexVectorDim := 1
  wf := wf

/-- On operand axis 0 the start of update `p` is the first component of pair `p`, read signed: it sits at `(p, 0)` of the
    scatter indices. -/
private theorem pairs_start0 {N M n w : Nat}
    (wf : ScatterDims.WF ⟨2, ![N, M]⟩ ⟨2, ![n, 2]⟩ ⟨1, ![n]⟩ [] [0, 1] [0, 1] 1)
    (idx : IVec ⟨2, ![n, 2]⟩ w) (p : Fin n) :
    (scatterPairDims N M n wf).start (ix1 p) idx (⟨0, by decide⟩ : Fin 2)
      = (idx (ix2 p ⟨0, Nat.succ_pos 1⟩)).toInt := by
  have hmem : (⟨0, by decide⟩ : Fin 2) ∈ (scatterPairDims N M n wf).scatterDimsToOperandDims :=
    List.mem_cons_self
  unfold ScatterDims.start
  rw [dif_pos hmem]
  have hsi : (scatterPairDims N M n wf).siIdx (ix1 p)
      ⟨List.idxOf (⟨0, by decide⟩ : Fin 2) (scatterPairDims N M n wf).scatterDimsToOperandDims,
        List.idxOf_lt_length_iff.2 hmem⟩ = ix2 p ⟨0, Nat.succ_pos 1⟩ := by
    funext b; refine Fin.ext ?_
    match b with
    | ⟨0, _⟩ => rfl
    | ⟨1, _⟩ => rfl
  rw [hsi]

/-- On operand axis 1 the start of update `p` is the second component of pair `p`, read signed: it sits at `(p, 1)` of the
    scatter indices. -/
private theorem pairs_start1 {N M n w : Nat}
    (wf : ScatterDims.WF ⟨2, ![N, M]⟩ ⟨2, ![n, 2]⟩ ⟨1, ![n]⟩ [] [0, 1] [0, 1] 1)
    (idx : IVec ⟨2, ![n, 2]⟩ w) (p : Fin n) :
    (scatterPairDims N M n wf).start (ix1 p) idx (⟨1, by decide⟩ : Fin 2)
      = (idx (ix2 p ⟨1, Nat.lt_succ_self 1⟩)).toInt := by
  have hmem : (⟨1, by decide⟩ : Fin 2) ∈ (scatterPairDims N M n wf).scatterDimsToOperandDims :=
    List.mem_cons_of_mem _ (List.mem_singleton.mpr rfl)
  unfold ScatterDims.start
  rw [dif_pos hmem]
  have hsi : (scatterPairDims N M n wf).siIdx (ix1 p)
      ⟨List.idxOf (⟨1, by decide⟩ : Fin 2) (scatterPairDims N M n wf).scatterDimsToOperandDims,
        List.idxOf_lt_length_iff.2 hmem⟩ = ix2 p ⟨1, Nat.lt_succ_self 1⟩ := by
    funext b; refine Fin.ext ?_
    match b with
    | ⟨0, _⟩ => rfl
    | ⟨1, _⟩ => rfl
  rw [hsi]

/-- Both operand axes are inserted window axes: neither has a window coordinate. -/
private theorem pairs_window {N M n : Nat}
    (wf : ScatterDims.WF ⟨2, ![N, M]⟩ ⟨2, ![n, 2]⟩ ⟨1, ![n]⟩ [] [0, 1] [0, 1] 1)
    (j : (⟨1, ![n]⟩ : Shape).Idx) (a : Fin 2) :
    (scatterPairDims N M n wf).window j a = 0 := by
  unfold ScatterDims.window
  rw [dif_neg]
  intro h
  have h2 : a ∉ (scatterPairDims N M n wf).insertedWindowDims := by
    simpa [Shape.kept] using (List.mem_filter.mp h).2
  apply h2
  match a with
  | ⟨0, _⟩ => exact List.mem_cons_self
  | ⟨1, _⟩ => exact List.mem_cons_of_mem _ (List.mem_singleton.mpr rfl)

/-- Update `p` lands on `(r, k)` exactly when pair `p` is `(r, k)`: it lands at (first component, second component) when
    that is inside the table, and nowhere otherwise; and `(r, k)` is inside the table. -/
private theorem pairs_resultIdx_iff {N M n w : Nat}
    (wf : ScatterDims.WF ⟨2, ![N, M]⟩ ⟨2, ![n, 2]⟩ ⟨1, ![n]⟩ [] [0, 1] [0, 1] 1)
    (idx : IVec ⟨2, ![n, 2]⟩ w) (p : Fin n) (r : Fin N) (k : Fin M) :
    (scatterPairDims N M n wf).resultIdx? (ix1 p) idx = some (ix2 r k)
      ↔ (idx (ix2 p ⟨0, Nat.succ_pos 1⟩)).toInt = (r.val : Int)
        ∧ (idx (ix2 p ⟨1, Nat.lt_succ_self 1⟩)).toInt = (k.val : Int) := by
  have h0 := pairs_start0 wf idx p
  have h1 := pairs_start1 wf idx p
  have w0 := pairs_window wf (ix1 p) (⟨0, by decide⟩ : Fin 2)
  have w1 := pairs_window wf (ix1 p) (⟨1, by decide⟩ : Fin 2)
  unfold ScatterDims.resultIdx?
  split
  · rename_i h
    rw [Option.some.injEq]
    have hh0 := (h (⟨0, by decide⟩ : Fin 2)).1
    have hh1 := (h (⟨1, by decide⟩ : Fin 2)).1
    rw [h0, w0] at hh0
    rw [h1, w1] at hh1
    constructor
    · intro hf
      have e0 : ((scatterPairDims N M n wf).start (ix1 p) idx (⟨0, by decide⟩ : Fin 2)
          + ((scatterPairDims N M n wf).window (ix1 p) (⟨0, by decide⟩ : Fin 2) : Int)).toNat = r.val :=
        congrArg Fin.val (congrFun hf (⟨0, by decide⟩ : Fin 2))
      have e1 : ((scatterPairDims N M n wf).start (ix1 p) idx (⟨1, by decide⟩ : Fin 2)
          + ((scatterPairDims N M n wf).window (ix1 p) (⟨1, by decide⟩ : Fin 2) : Int)).toNat = k.val :=
        congrArg Fin.val (congrFun hf (⟨1, by decide⟩ : Fin 2))
      rw [h0, w0] at e0
      rw [h1, w1] at e1
      exact ⟨by omega, by omega⟩
    · rintro ⟨ht0, ht1⟩
      funext a; refine Fin.ext ?_
      match a with
      | ⟨0, _⟩ =>
        show ((scatterPairDims N M n wf).start (ix1 p) idx (⟨0, by decide⟩ : Fin 2)
          + ((scatterPairDims N M n wf).window (ix1 p) (⟨0, by decide⟩ : Fin 2) : Int)).toNat = r.val
        rw [h0, w0]; omega
      | ⟨1, _⟩ =>
        show ((scatterPairDims N M n wf).start (ix1 p) idx (⟨1, by decide⟩ : Fin 2)
          + ((scatterPairDims N M n wf).window (ix1 p) (⟨1, by decide⟩ : Fin 2) : Int)).toNat = k.val
        rw [h1, w1]; omega
  · rename_i h
    constructor
    · intro hf; exact absurd hf (by simp)
    · rintro ⟨ht0, ht1⟩
      exfalso; apply h
      intro a
      match a with
      | ⟨0, _⟩ =>
        show 0 ≤ (scatterPairDims N M n wf).start (ix1 p) idx (⟨0, by decide⟩ : Fin 2)
            + ((scatterPairDims N M n wf).window (ix1 p) (⟨0, by decide⟩ : Fin 2) : Int)
          ∧ (scatterPairDims N M n wf).start (ix1 p) idx (⟨0, by decide⟩ : Fin 2)
            + ((scatterPairDims N M n wf).window (ix1 p) (⟨0, by decide⟩ : Fin 2) : Int) < (N : Int)
        rw [h0, w0, ht0]; have := r.isLt; omega
      | ⟨1, _⟩ =>
        show 0 ≤ (scatterPairDims N M n wf).start (ix1 p) idx (⟨1, by decide⟩ : Fin 2)
            + ((scatterPairDims N M n wf).window (ix1 p) (⟨1, by decide⟩ : Fin 2) : Int)
          ∧ (scatterPairDims N M n wf).start (ix1 p) idx (⟨1, by decide⟩ : Fin 2)
            + ((scatterPairDims N M n wf).window (ix1 p) (⟨1, by decide⟩ : Fin 2) : Int) < (M : Int)
        rw [h1, w1, ht1]; have := k.isLt; omega

/-- THE ENTRY SCATTER-ADD BY INDEX PAIRS READ AT `(r, k)`: the operand there plus the updates `p` whose pair is `(r, k)`. -/
theorem scatterAdd_pairs_apply {N M n w : Nat}
    (wf : ScatterDims.WF ⟨2, ![N, M]⟩ ⟨2, ![n, 2]⟩ ⟨1, ![n]⟩ [] [0, 1] [0, 1] 1)
    (x0 : (⟨2, ![N, M]⟩ : Shape).Idx → EReal) (idx : IVec ⟨2, ![n, 2]⟩ w) (upd : (⟨1, ![n]⟩ : Shape).Idx → EReal)
    (r : Fin N) (k : Fin M) :
    Ideal.hostScatterAdd (scatterPairDims N M n wf) x0 idx upd (ix2 r k)
      = x0 (ix2 r k) + ∑ p : Fin n, if (idx (ix2 p ⟨0, Nat.succ_pos 1⟩)).toInt = (r.val : Int) ∧ (idx (ix2 p ⟨1, Nat.lt_succ_self 1⟩)).toInt = (k.val : Int) then upd (ix1 p) else 0 := by
  unfold Ideal.hostScatterAdd
  congr 1
  -- the sum over the updates landing on `(r, k)`, as the sum over `p` of the updates whose pair is `(r, k)`
  rw [Finset.sum_filter, sum_idx1]
  refine Finset.sum_congr rfl fun p _ => ?_
  simp only [pairs_resultIdx_iff]

/-! ## Sums over a rank-4 index set -/

/-- A rank-4 index set is the product of its four coordinate ranges … -/
private def idxEquiv4 {n0 n1 n2 n3 : Nat} : (⟨4, ![n0, n1, n2, n3]⟩ : Shape).Idx ≃ Fin n0 × Fin n1 × Fin n2 × Fin n3 where
  toFun i := (i 0, i 1, i 2, i 3)
  invFun q := ix4 q.1 q.2.1 q.2.2.1 q.2.2.2
  left_inv i := (eq_ix4 i).symm
  right_inv _ := rfl

/-- … so a sum over it is the fourfold sum over the coordinates. -/
private theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- Of a threefold sum of terms that vanish off the one point `(a, b, c)` only the term at that point remains. -/
private theorem sum3_single {M : Type*} [AddCommMonoid M] {A B C : Nat} (f : Fin A → Fin B → Fin C → M)
    (a : Fin A) (b : Fin B) (c : Fin C) :
    (∑ a' : Fin A, ∑ b' : Fin B, ∑ c' : Fin C, if a' = a ∧ b' = b ∧ c' = c then f a' b' c' else 0) = f a b c := by
  refine (Finset.sum_eq_single a (fun a' _ ha => ?_) (fun h => absurd (Finset.mem_univ a) h)).trans ?_
  · simp [ha]
  refine (Finset.sum_eq_single b (fun b' _ hb => ?_) (fun h => absurd (Finset.mem_univ b) h)).trans ?_
  · simp [hb]
  refine (Finset.sum_eq_single c (fun c' _ hc => ?_) (fun h => absurd (Finset.mem_univ c) h)).trans ?_
  · simp [hc]
  simp

/-! ## (2) Row scatter-add into a rank-4 table -/

/-- The dimension numbers of a row scatter into an `[N, A, B, C]` table by an `[n, 1]` column of row numbers. -/
abbrev scatterRowDims (N A B C n : Nat)
    (wf : ScatterDims.WF ⟨4, ![N, A, B, C]⟩ ⟨2, ![n, 1]⟩ ⟨4, ![n, A, B, C]⟩ [1, 2, 3] [0] [0] 1) :
    ScatterDims ⟨4, ![N, A, B, C]⟩ ⟨2, ![n, 1]⟩ ⟨4, ![n, A, B, C]⟩ where
  updateWindowDims := [1, 2, 3]
  insertedWindowDims := [0]
  scatterDimsToOperandDims := [0]
  indexVectorDim := 1
  wf := wf

/-- On the row axis the start of update `(p, a, b, c)` is row number `p`, read signed: the one scatter index of update row
    `p` sits at `(p, 0)` of the column of scatter indices. -/
private theorem rows_start0 {N A B C n w : Nat}
    (wf : ScatterDims.WF ⟨4, ![N, A, B, C]⟩ ⟨2, ![n, 1]⟩ ⟨4, ![n, A, B, C]⟩ [1, 2, 3] [0] [0] 1)
    (idx : IVec ⟨2, ![n, 1]⟩ w) (p : Fin n) (a : Fin A) (b : Fin B) (c : Fin C) :
    (scatterRowDims N A B C n wf).start (ix4 p a b c) idx (⟨0, by decide⟩ : Fin 4) = (idx (ix2 p ⟨0, Nat.one_pos⟩)).toInt := by
  have hmem : (⟨0, by decide⟩ : Fin 4) ∈ (scatterRowDims N A B C n wf).scatterDimsToOperandDims := List.mem_singleton.mpr rfl
  unfold ScatterDims.start
  rw [dif_pos hmem]
  have hsi : (scatterRowDims N A B C n wf).siIdx (ix4 p a b c)
      ⟨List.idxOf (⟨0, by decide⟩ : Fin 4) (scatterRowDims N A B C n wf).scatterDimsToOperandDims,
        List.idxOf_lt_length_iff.2 hmem⟩ = ix2 p ⟨0, Nat.one_pos⟩ := by
    funext e; refine Fin.ext ?_
    match e with
    | ⟨0, _⟩ => rfl
    | ⟨1, _⟩ => rfl
  rw [hsi]

/-- The three block axes are named by no scatter index: their start is `0`. -/
private theorem rows_startW {N A B C n w : Nat}
    (wf : ScatterDims.WF ⟨4, ![N, A, B, C]⟩ ⟨2, ![n, 1]⟩ ⟨4, ![n, A, B, C]⟩ [1, 2, 3] [0] [0] 1)
    (idx : IVec ⟨2, ![n, 1]⟩ w) (j : (⟨4, ![n, A, B, C]⟩ : Shape).Idx) (e : Fin 4) (he : e.val ≠ 0) :
    (scatterRowDims N A B C n wf).start j idx e = 0 := by
  unfold ScatterDims.start
  rw [dif_neg (fun h => he (congrArg Fin.val (List.mem_singleton.mp h)))]

/-- The row axis is an inserted window axis: it has no window coordinate. -/
private theorem rows_window0 {N A B C n : Nat}
    (wf : ScatterDims.WF ⟨4, ![N, A, B, C]⟩ ⟨2, ![n, 1]⟩ ⟨4, ![n, A, B, C]⟩ [1, 2, 3] [0] [0] 1)
    (j : (⟨4, ![n, A, B, C]⟩ : Shape).Idx) :
    (scatterRowDims N A B C n wf).window j (⟨0, by decide⟩ : Fin 4) = 0 := by
  unfold ScatterDims.window
  rw [dif_neg (by simp [Shape.kept])]

/-- Block axis 1 is the first window axis: its window coordinate is the update's own coordinate there. -/
private theorem rows_window1 {N A B C n : Nat}
    (wf : ScatterDims.WF ⟨4, ![N, A, B, C]⟩ ⟨2, ![n, 1]⟩ ⟨4, ![n, A, B, C]⟩ [1, 2, 3] [0] [0] 1)
    (p : Fin n) (a : Fin A) (b : Fin B) (c : Fin C) :
    (scatterRowDims N A B C n wf).window (ix4 p a b c) (⟨1, by decide⟩ : Fin 4) = a.val := by
  unfold ScatterDims.window
  rw [dif_pos (by simp [Shape.kept])]
  rfl

/-- Block axis 2 is the second window axis: its window coordinate is the update's own coordinate there. -/
private theorem rows_window2 {N A B C n : Nat}
    (wf : ScatterDims.WF ⟨4, ![N, A, B, C]⟩ ⟨2, ![n, 1]⟩ ⟨4, ![n, A, B, C]⟩ [1, 2, 3] [0] [0] 1)
    (p : Fin n) (a : Fin A) (b : Fin B) (c : Fin C) :
    (scatterRowDims N A B C n wf).window (ix4 p a b c) (⟨2, by decide⟩ : Fin 4) = b.val := by
  unfold ScatterDims.window
  rw [dif_pos (by simp [Shape.kept])]
  rfl

/-- Block axis 3 is the third window axis: its window coordinate is the update's own coordinate there. -/
private theorem rows_window3 {N A B C n : Nat}
    (wf : ScatterDims.WF ⟨4, ![N, A, B, C]⟩ ⟨2, ![n, 1]⟩ ⟨4, ![n, A, B, C]⟩ [1, 2, 3] [0] [0] 1)
    (p : Fin n) (a : Fin A) (b : Fin B) (c : Fin C) :
    (scatterRowDims N A B C n wf).window (ix4 p a b c) (⟨3, by decide⟩ : Fin 4) = c.val := by
  unfold ScatterDims.window
  rw [dif_pos (by simp [Shape.kept])]
  rfl

/-- Update `(p, a', b', c')` lands on `(k, a, b, c)` exactly when row number `p` is `k` and `(a', b', c') = (a, b, c)`: it
    lands at (row number + 0, 0 + a', 0 + b', 0 + c') when that is inside the table, and nowhere otherwise; and
    `(k, a, b, c)` is inside the table. -/
private theorem rows_resultIdx_iff {N A B C n w : Nat}
    (wf : ScatterDims.WF ⟨4, ![N, A, B, C]⟩ ⟨2, ![n, 1]⟩ ⟨4, ![n, A, B, C]⟩ [1, 2, 3] [0] [0] 1)
    (idx : IVec ⟨2, ![n, 1]⟩ w) (p : Fin n) (a' : Fin A) (b' : Fin B) (c' : Fin C)
    (k : Fin N) (a : Fin A) (b : Fin B) (c : Fin C) :
    (scatterRowDims N A B C n wf).resultIdx? (ix4 p a' b' c') idx = some (ix4 k a b c)
      ↔ (idx (ix2 p ⟨0, Nat.one_pos⟩)).toInt = (k.val : Int) ∧ a' = a ∧ b' = b ∧ c' = c := by
  have h0 := rows_start0 wf idx p a' b' c'
  have h1 := rows_startW wf idx (ix4 p a' b' c') (⟨1, by decide⟩ : Fin 4) (by decide)
  have h2 := rows_startW wf idx (ix4 p a' b' c') (⟨2, by decide⟩ : Fin 4) (by decide)
  have h3 := rows_startW wf idx (ix4 p a' b' c') (⟨3, by decide⟩ : Fin 4) (by decide)
  have w0 := rows_window0 wf (ix4 p a' b' c')
  have w1 := rows_window1 wf p a' b' c'
  have w2 := rows_window2 wf p a' b' c'
  have w3 := rows_window3 wf p a' b' c'
  unfold ScatterDims.resultIdx?
  split
  · rename_i h
    rw [Option.some.injEq]
    have hh := (h (⟨0, by decide⟩ : Fin 4)).1
    rw [h0, w0] at hh
    constructor
    · intro hf
      have e0 : ((scatterRowDims N A B C n wf).start (ix4 p a' b' c') idx (⟨0, by decide⟩ : Fin 4)
            + ((scatterRowDims N A B C n wf).window (ix4 p a' b' c') (⟨0, by decide⟩ : Fin 4) : Int)).toNat = k.val :=
        congrArg Fin.val (congrFun hf (⟨0, by decide⟩ : Fin 4))
      rw [h0, w0] at e0
      have e1 : ((scatterRowDims N A B C n wf).start (ix4 p a' b' c') idx (⟨1, by decide⟩ : Fin 4)
            + ((scatterRowDims N A B C n wf).window (ix4 p a' b' c') (⟨1, by decide⟩ : Fin 4) : Int)).toNat = a.val :=
        congrArg Fin.val (congrFun hf (⟨1, by decide⟩ : Fin 4))
      rw [h1, w1] at e1
      have e2 : ((scatterRowDims N A B C n wf).start (ix4 p a' b' c') idx (⟨2, by decide⟩ : Fin 4)
            + ((scatterRowDims N A B C n wf).window (ix4 p a' b' c') (⟨2, by decide⟩ : Fin 4) : Int)).toNat = b.val :=
        congrArg Fin.val (congrFun hf (⟨2, by decide⟩ : Fin 4))
      rw [h2, w2] at e2
      have e3 : ((scatterRowDims N A B C n wf).start (ix4 p a' b' c') idx (⟨3, by decide⟩ : Fin 4)
            + ((scatterRowDims N A B C n wf).window (ix4 p a' b' c') (⟨3, by decide⟩ : Fin 4) : Int)).toNat = c.val :=
        congrArg Fin.val (congrFun hf (⟨3, by decide⟩ : Fin 4))
      rw [h3, w3] at e3
      exact ⟨by omega, Fin.ext (by omega), Fin.ext (by omega), Fin.ext (by omega)⟩
    · rintro ⟨ht, rfl, rfl, rfl⟩
      funext e; refine Fin.ext ?_
      match e with
      | ⟨0, _⟩ =>
        show ((scatterRowDims N A B C n wf).start (ix4 p a' b' c') idx (⟨0, by decide⟩ : Fin 4)
            + ((scatterRowDims N A B C n wf).window (ix4 p a' b' c') (⟨0, by decide⟩ : Fin 4) : Int)).toNat = k.val
        rw [h0, w0]; omega
      | ⟨1, _⟩ =>
        show ((scatterRowDims N A B C n wf).start (ix4 p a' b' c') idx (⟨1, by decide⟩ : Fin 4)
            + ((scatterRowDims N A B C n wf).window (ix4 p a' b' c') (⟨1, by decide⟩ : Fin 4) : Int)).toNat = a'.val
        rw [h1, w1]; omega
      | ⟨2, _⟩ =>
        show ((scatterRowDims N A B C n wf).start (ix4 p a' b' c') idx (⟨2, by decide⟩ : Fin 4)
            + ((scatterRowDims N A B C n wf).window (ix4 p a' b' c') (⟨2, by decide⟩ : Fin 4) : Int)).toNat = b'.val
        rw [h2, w2]; omega
      | ⟨3, _⟩ =>
        show ((scatterRowDims N A B C n wf).start (ix4 p a' b' c') idx (⟨3, by decide⟩ : Fin 4)
            + ((scatterRowDims N A B C n wf).window (ix4 p a' b' c') (⟨3, by decide⟩ : Fin 4) : Int)).toNat = c'.val
        rw [h3, w3]; omega
  · rename_i h
    constructor
    · intro hf; exact absurd hf (by simp)
    · rintro ⟨ht, rfl, rfl, rfl⟩
      exfalso; apply h
      intro e
      match e with
      | ⟨0, _⟩ =>
        show 0 ≤ (scatterRowDims N A B C n wf).start (ix4 p a' b' c') idx (⟨0, by decide⟩ : Fin 4)
            + ((scatterRowDims N A B C n wf).window (ix4 p a' b' c') (⟨0, by decide⟩ : Fin 4) : Int)
          ∧ (scatterRowDims N A B C n wf).start (ix4 p a' b' c') idx (⟨0, by decide⟩ : Fin 4)
            + ((scatterRowDims N A B C n wf).window (ix4 p a' b' c') (⟨0, by decide⟩ : Fin 4) : Int) < (N : Int)
        rw [h0, w0, ht]; have := k.isLt; omega
      | ⟨1, _⟩ =>
        show 0 ≤ (scatterRowDims N A B C n wf).start (ix4 p a' b' c') idx (⟨1, by decide⟩ : Fin 4)
            + ((scatterRowDims N A B C n wf).window (ix4 p a' b' c') (⟨1, by decide⟩ : Fin 4) : Int)
          ∧ (scatterRowDims N A B C n wf).start (ix4 p a' b' c') idx (⟨1, by decide⟩ : Fin 4)
            + ((scatterRowDims N A B C n wf).window (ix4 p a' b' c') (⟨1, by decide⟩ : Fin 4) : Int) < (A : Int)
        rw [h1, w1]; have := a'.isLt; omega
      | ⟨2, _⟩ =>
        show 0 ≤ (scatterRowDims N A B C n wf).start (ix4 p a' b' c') idx (⟨2, by decide⟩ : Fin 4)
            + ((scatterRowDims N A B C n wf).window (ix4 p a' b' c') (⟨2, by decide⟩ : Fin 4) : Int)
          ∧ (scatterRowDims N A B C n wf).start (ix4 p a' b' c') idx (⟨2, by decide⟩ : Fin 4)
            + ((scatterRowDims N A B C n wf).window (ix4 p a' b' c') (⟨2, by decide⟩ : Fin 4) : Int) < (B : Int)
        rw [h2, w2]; have := b'.isLt; omega
      | ⟨3, _⟩ =>
        show 0 ≤ (scatterRowDims N A B C n wf).start (ix4 p a' b' c') idx (⟨3, by decide⟩ : Fin 4)
            + ((scatterRowDims N A B C n wf).window (ix4 p a' b' c') (⟨3, by decide⟩ : Fin 4) : Int)
          ∧ (scatterRowDims N A B C n wf).start (ix4 p a' b' c') idx (⟨3, by decide⟩ : Fin 4)
            + ((scatterRowDims N A B C n wf).window (ix4 p a' b' c') (⟨3, by decide⟩ : Fin 4) : Int) < (C : Int)
        rw [h3, w3]; have := c'.isLt; omega

/-- THE ROW SCATTER-ADD READ AT `(k, a, b, c)`: the operand there plus the updates `(p, a, b, c)` of the rows `p` numbered `k`. -/
theorem scatterAdd_rows_apply {N A B C n w : Nat}
    (wf : ScatterDims.WF ⟨4, ![N, A, B, C]⟩ ⟨2, ![n, 1]⟩ ⟨4, ![n, A, B, C]⟩ [1, 2, 3] [0] [0] 1)
    (x0 : (⟨4, ![N, A, B, C]⟩ : Shape).Idx → EReal) (idx : IVec ⟨2, ![n, 1]⟩ w) (upd : (⟨4, ![n, A, B, C]⟩ : Shape).Idx → EReal)
    (k : Fin N) (a : Fin A) (b : Fin B) (c : Fin C) :
    Ideal.hostScatterAdd (scatterRowDims N A B C n wf) x0 idx upd (ix4 k a b c)
      = x0 (ix4 k a b c) + ∑ p : Fin n, if (idx (ix2 p ⟨0, Nat.one_pos⟩)).toInt = (k.val : Int) then upd (ix4 p a b c) else 0 := by
  unfold Ideal.hostScatterAdd
  congr 1
  -- the sum over the updates landing on `(k, a, b, c)`, as a fourfold sum over `(p, a', b', c')` of the updates with row
  -- number `k` and `(a', b', c') = (a, b, c)`
  rw [Finset.sum_filter, sum_idx4]
  refine Finset.sum_congr rfl fun p _ => ?_
  simp only [rows_resultIdx_iff]
  by_cases ht : (idx (ix2 p ⟨0, Nat.one_pos⟩)).toInt = (k.val : Int)
  · -- row `p` is numbered `k`: of its block only the entry `(a, b, c)` remains
    simp only [ht, true_and, if_true]
    exact sum3_single (fun a' b' c' => upd (ix4 p a' b' c')) a b c
  · -- row `p` is not numbered `k`: every term is `0`
    simp only [ht, false_and, if_false]
    simp

/-! ## (3) Row gather from a rank-4 table -/

/-- The dimension numbers of a row gather from an `[N, A, B, C]` table by an `[n, 1]` column of row numbers. -/
abbrev gatherRowDims (N A B C n : Nat)
    (wf : GatherDims.WF ⟨4, ![N, A, B, C]⟩ ⟨2, ![n, 1]⟩ ⟨4, ![n, A, B, C]⟩ [1, 2, 3] [0] [] [0] [] 1 ![1, A, B, C]) :
    GatherDims ⟨4, ![N, A, B, C]⟩ ⟨2, ![n, 1]⟩ ⟨4, ![n, A, B, C]⟩ where
  offsetDims := [1, 2, 3]
  collapsedSliceDims := [0]
  operandBatchingDims := []
  startIndicesBatchingDims := []
  startIndexMap := [0]
  indexVectorDim := 1
  sliceSizes := ![1, A, B, C]
  wf := wf

/-- The three block axes are named by no start index: their start is `0`. -/
private theorem gather_startW {N A B C n w : Nat}
    (wf : GatherDims.WF ⟨4, ![N, A, B, C]⟩ ⟨2, ![n, 1]⟩ ⟨4, ![n, A, B, C]⟩ [1, 2, 3] [0] [] [0] [] 1 ![1, A, B, C])
    (idx : IVec ⟨2, ![n, 1]⟩ w) (j : (⟨4, ![n, A, B, C]⟩ : Shape).Idx) (e : Fin 4) (he : e.val ≠ 0) :
    (gatherRowDims N A B C n wf).start j idx e = 0 := by
  unfold GatherDims.start
  rw [dif_neg (fun h => he (congrArg Fin.val (List.mem_singleton.mp h)))]

/-- THE ROW GATHER READ AT `(p, a, b, c)`: the table at row `idx[p, 0]` (signed, clamped into `[0, N − 1]`), same
    `(a, b, c)`. On the row axis the operand coordinate is the clamped start (no batching axis, and a collapsed axis has no
    offset); on a block axis there is no start, and the offset coordinate is the result's own coordinate there. -/
theorem gather_rows_apply {α : Type} {N A B C n w : Nat} (hN : 0 < N)
    (wf : GatherDims.WF ⟨4, ![N, A, B, C]⟩ ⟨2, ![n, 1]⟩ ⟨4, ![n, A, B, C]⟩ [1, 2, 3] [0] [] [0] [] 1 ![1, A, B, C])
    (x : (⟨4, ![N, A, B, C]⟩ : Shape).Idx → α) (idx : IVec ⟨2, ![n, 1]⟩ w) (p : Fin n) (a : Fin A) (b : Fin B) (c : Fin C) :
    Host.gather (gatherRowDims N A B C n wf) x idx (ix4 p a b c)
      = x (ix4 ⟨min (idx (ix2 p ⟨0, Nat.one_pos⟩)).toInt.toNat (N - 1), by omega⟩ a b c) := by
  unfold Host.gather
  congr 1
  funext e
  refine Fin.ext ?_
  show (gatherRowDims N A B C n wf).start (ix4 p a b c) idx e + (gatherRowDims N A B C n wf).batchCoord (ix4 p a b c) e
    + (gatherRowDims N A B C n wf).offCoord (ix4 p a b c) e = _
  rw [GatherDims.batchCoord_eq_zero _ _ _ List.not_mem_nil, Nat.add_zero]
  match e with
  | ⟨0, _⟩ =>
    -- the row axis: collapsed, so no offset; its start is the clamped start index
    have hmem : (⟨0, by decide⟩ : Fin 4) ∈ (gatherRowDims N A B C n wf).startIndexMap := List.mem_singleton.mpr rfl
    rw [GatherDims.offCoord_eq_zero _ _ _
      (fun h => ((GatherDims.mem_sKept _ _).mp h).1 (List.mem_singleton.mpr rfl)), Nat.add_zero]
    unfold GatherDims.start
    rw [dif_pos hmem]
    have hsi : (gatherRowDims N A B C n wf).siIdx (ix4 p a b c)
        ⟨List.idxOf (⟨0, by decide⟩ : Fin 4) (gatherRowDims N A B C n wf).startIndexMap,
          List.idxOf_lt_length_iff.2 hmem⟩ = ix2 p ⟨0, Nat.one_pos⟩ := by
      funext f; refine Fin.ext ?_
      match f with
      | ⟨0, _⟩ => rfl
      | ⟨1, _⟩ => rfl
    rw [hsi]
    rfl
  | ⟨1, _⟩ =>
    -- block axis 1: no start index names it; the offset is the result's own coordinate
    rw [gather_startW wf idx _ (⟨1, by decide⟩ : Fin 4) (by decide), Nat.zero_add]
    rfl
  | ⟨2, _⟩ =>
    rw [gather_startW wf idx _ (⟨2, by decide⟩ : Fin 4) (by decide), Nat.zero_add]
    rfl
  | ⟨3, _⟩ =>
    rw [gather_startW wf idx _ (⟨3, by decide⟩ : Fin 4) (by decide), Nat.zero_add]
    rfl

end Idealize.ShloMosaic.Rows4
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.Spec.lean ====
/-
  What both programs compute, and the one law of arithmetic that joins them.

  The inputs are node features `V` of shape [8, 8, 10000, 4] (a feature row of 8·8·4 numbers for each of 10000 nodes),
  an edge table `ei` of shape [2, 320000] (row 0 the source node of each edge, row 1 its destination node) and an edge
  weight vector `w`. The result at (b, t, n, d) is the sum over the edges `e` INTO node `n` of
  `V[b, t, src e, d] · w[e]` (`G`).

  The reference computes exactly this sum, edge by edge. The kernel first adds the weights of the edges from `k` to `n`
  into an entry A[n, k] of a dense matrix, and then takes the matrix product: the result is `∑ k, A[n, k] · V[b, t, k, d]`.
  The two agree because a product distributes over a finite sum of REAL numbers and each edge has exactly one source:
  `∑ k, (∑ e, [dst e = n ∧ src e = k] w e) · v k = ∑ e, [dst e = n] v (src e) · w e` (`sum_dense_eq_sum_edges`). On the
  extended reals distributivity needs the factors finite, which is where the finiteness of the inputs is used
  (`dense_eq_G`).
-/
import Idealize.ShloMosaic.PureOps.Ideal
import Idealize.ShloMosaic.Lib.ValueIdx
import proofs.«401143_j89275190215328_2_alg».proof.Proof.LibIdealReal

noncomputable section

namespace Cert.Spec

open Idealize.ShloMosaic Idealize.ShloMosaic.ValueIdx

/-- The node features' shape, the edge table's and the weights'. -/
abbrev SV : Shape := ⟨4, ![8, 8, 10000, 4]⟩
abbrev SE : Shape := ⟨2, ![2, 320000]⟩
abbrev SW : Shape := ⟨1, ![320000]⟩

/-- Edge `e`'s source node: entry (0, e) of the edge table read as a signed integer, clamped into the node range. -/
def src (ei : IVec SE 32) (e : Fin 320000) : Fin 10000 :=
  ⟨min (ei (ix2 (0 : Fin 2) e)).toInt.toNat 9999, by omega⟩

/-- Edge `e`'s destination node: entry (1, e) of the edge table read as a signed integer. -/
def dst (ei : IVec SE 32) (e : Fin 320000) : Int := (ei (ix2 (1 : Fin 2) e)).toInt

/-- The aggregated features: at (b, t, n, d) the sum over the edges into node `n` of the source node's feature times
    the edge's weight. -/
def G (V : SV.Idx → EReal) (ei : IVec SE 32) (w : SW.Idx → EReal) : SV.Idx → EReal :=
  fun i => ∑ e : Fin 320000,
    if dst ei e = ((i 2).val : Int) then V (ix4 (i 0) (i 1) (src ei e) (i 3)) * w (ix1 e) else 0

/-- A sum over `Fin M` whose terms vanish from `N` on is the sum over `Fin N`. -/
theorem sum_fin_dite_lt {M N : ℕ} (hNM : N ≤ M) (f : Fin N → EReal) :
    ∑ k : Fin M, (if h : k.val < N then f ⟨k.val, h⟩ else 0) = ∑ k : Fin N, f k := by
  have h1 := Fin.sum_univ_eq_sum_range (fun k : ℕ => if h : k < N then f ⟨k, h⟩ else 0) M
  have h2 := Fin.sum_univ_eq_sum_range (fun k : ℕ => if h : k < N then f ⟨k, h⟩ else 0) N
  calc ∑ k : Fin M, (if h : k.val < N then f ⟨k.val, h⟩ else 0)
      = ∑ k ∈ Finset.range M, (if h : k < N then f ⟨k, h⟩ else 0) := h1
    _ = ∑ k ∈ Finset.range N, (if h : k < N then f ⟨k, h⟩ else 0) :=
        (Finset.sum_subset (Finset.range_mono hNM) (fun k _ hk => dif_neg (by simpa using hk))).symm
    _ = ∑ k : Fin N, (if h : k.val < N then f ⟨k.val, h⟩ else 0) := h2.symm
    _ = ∑ k : Fin N, f k := Finset.sum_congr rfl fun k _ => dif_pos k.isLt

/-- THE LAW, over the reals: summing the weights of the edges `k → n` first and then against `v k` over all `k` is
    summing `v (src e) · w e` over the edges into `n`: each edge has one source. -/
theorem sum_dense_eq_sum_edges {E : Type} [Fintype E] {N : ℕ} (wr : E → ℝ) (vr : Fin N → ℝ) (s : E → Fin N)
    (P : E → Prop) [DecidablePred P] :
    ∑ k : Fin N, (∑ e, if P e ∧ s e = k then wr e else 0) * vr k = ∑ e, if P e then vr (s e) * wr e else 0 := by
  simp_rw [Finset.sum_mul]
  rw [Finset.sum_comm]
  refine Finset.sum_congr rfl fun e _ => ?_
  by_cases hP : P e
  · simp only [hP, true_and, if_true]
    rw [Finset.sum_eq_single (s e)]
    · rw [if_pos rfl, mul_comm]
    · intro k _ hk
      rw [if_neg (fun h => hk h.symm), zero_mul]
    · intro h; exact absurd (Finset.mem_univ _) h
  · simp only [hP, false_and, if_false, zero_mul, Finset.sum_const_zero]

/-- An `if` between an embedded real and zero is the embedding of the `if`. -/
theorem coe_ite (c : Prop) [Decidable c] (a : ℝ) : (if c then (a : EReal) else 0) = ((if c then a else 0 : ℝ) : EReal) := by
  split <;> simp

end Cert.Spec

end
-- ==== Proof.RefValue.lean ====
/-
  The reference, read at a result index.

  The reference transposes the features so that the node axis comes first, takes for each edge the feature row of its
  source node (a row gather), multiplies the row by the edge's weight, adds the rows of the edges with destination `n`
  into row `n` of a zero array (a segment sum: a row scatter-add), and transposes back. At (b, t, n, d) that is the
  zero of the array plus the sum over the edges `e` whose destination entry is `n` of `V[b, t, src e, d] · w[e]`: the
  specification's sum. With the source entries in the node range the gather's "negative index wraps" select picks the
  entry itself and its clamp changes nothing.
-/
import proofs.«401143_j89275190215328_2_alg».proof.Proof.Gen.ReferenceIdeal.Read
import proofs.«401143_j89275190215328_2_alg».proof.Proof.LibRows4
import proofs.«401143_j89275190215328_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- A word whose signed value is not negative does not compare below zero. -/
theorem not_slt_zero (x : BitVec 32) (h : 0 ≤ x.toInt) : IntOp.cmpi .slt x 0#32 = 0#1 :=
  eq_zero_of_ne_one fun h1 => by
    have h2 := IntOp.cmpi_slt.1 h1
    have z : (0#32 : BitVec 32).toInt = 0 := by decide
    omega

/-- The gather's start index of edge `e`: the source entry (0, e) itself, when it is not negative. -/
theorem start_src (ei : IVec S2x320000 32) (hr : ∀ i, 0 ≤ (ei i).toInt ∧ (ei i).toInt < 10000) (e : Fin 320000) :
    val_main_v10 (F := Ideal) ei (ix2 e ⟨0, Nat.one_pos⟩) = ei (ix2 (0 : Fin 2) e) := by
  rw [val_main_v10_apply, val_main_v9_apply, val_main_v6_apply, val_main_v5_apply, val_main_c_apply,
    val_main_v2_apply, val_main_v1_apply]
  have hidx : idx_main_v1 (idx_main_v2 (idx_main_v10 (ix2 e ⟨0, Nat.one_pos⟩))) = ix2 (0 : Fin 2) e := by
    funext a; apply Fin.ext
    match a with
    | ⟨0, _⟩ => rfl
    | ⟨1, _⟩ => show e.val % 320000 = e.val; omega
  rw [hidx, not_slt_zero _ (hr _).1, select_zero]

/-- The scatter's index of edge `e`: the destination entry (1, e). -/
theorem index_dst (ei : IVec S2x320000 32) (e : Fin 320000) :
    val_main_v16 (F := Ideal) ei (ix2 e ⟨0, Nat.one_pos⟩) = ei (ix2 (1 : Fin 2) e) := by
  rw [val_main_v16_apply, val_main_v4_apply, val_main_v3_apply]
  refine congrArg ei (funext fun a => Fin.ext ?_)
  match a with
  | ⟨0, _⟩ => rfl
  | ⟨1, _⟩ => show e.val % 320000 = e.val; omega

/-- THE REFERENCE'S RESULT is the specification's sum, when the edge table's entries are node numbers. -/
theorem result_eq (V : FVec Ideal S8x8x10000x4 .f32) (ei : IVec S2x320000 32) (w : FVec Ideal S320000 .f32)
    (hr : ∀ i, 0 ≤ (ei i).toInt ∧ (ei i).toInt < 10000) :
    val_main_v18 (F := Ideal) V ei w = Cert.Spec.G V ei w := by
  funext i
  obtain ⟨b, t, n, d, rfl⟩ : ∃ (b : Fin 8) (t : Fin 8) (n : Fin 10000) (d : Fin 4), i = ix4 b t n d :=
    ⟨i 0, i 1, i 2, i 3, eq_ix4 i⟩
  rw [val_main_v18_apply]
  have hi : idx_main_v18 (ix4 b t n d) = ix4 n b t d := by
    funext a; apply Fin.ext
    match a with
    | ⟨0, _⟩ => rfl
    | ⟨1, _⟩ => rfl
    | ⟨2, _⟩ => rfl
    | ⟨3, _⟩ => rfl
  rw [hi]
  unfold val_main_v17
  show Ideal.hostScatterAdd (Rows4.scatterRowDims 10000 8 8 4 320000 _) (val_main_v15 (F := Ideal))
    (val_main_v16 (F := Ideal) ei) (val_main_v14 (F := Ideal) V ei w) (ix4 n b t d) = _
  rw [Rows4.scatterAdd_rows_apply, val_main_v15_apply, val_main_cst_apply]
  show Ideal.ofBits .f32 0x00000000#32 + _ = _
  rw [Ideal.ofBits_zero_f32, zero_add]
  unfold Cert.Spec.G
  refine Finset.sum_congr rfl fun e _ => ?_
  rw [index_dst ei e]
  refine if_congr Iff.rfl ?_ rfl
  rw [val_main_v14_apply]
  show val_main_v11 (F := Ideal) V ei (ix4 e b t d) * val_main_v13 (F := Ideal) w (ix4 e b t d) = _
  congr 1
  · -- the gathered row: the source node's features
    unfold val_main_v11
    show Host.gather (Rows4.gatherRowDims 10000 8 8 4 320000 _) (val_main_v0 (F := Ideal) V)
      (val_main_v10 (F := Ideal) ei) (ix4 e b t d) = _
    rw [Rows4.gather_rows_apply (by decide), val_main_v0_apply]
    refine congrArg V (funext fun a => Fin.ext ?_)
    match a with
    | ⟨0, _⟩ => rfl
    | ⟨1, _⟩ => rfl
    | ⟨2, _⟩ =>
      show min (val_main_v10 (F := Ideal) ei (ix2 e ⟨0, Nat.one_pos⟩)).toInt.toNat (10000 - 1)
        = min (ei (ix2 (0 : Fin 2) e)).toInt.toNat 9999
      rw [start_src ei hr e]
    | ⟨3, _⟩ => rfl
  · -- the weight, broadcast along the row
    rw [val_main_v13_apply, val_main_v12_apply]
    refine congrArg w (funext fun a => Fin.ext ?_)
    match a with
    | ⟨0, _⟩ => rfl

end Cert.ReferenceIdeal.RefValue

end
-- ==== Proof.Stages.lean ====
/-
  The host side of the kernel program, stage by stage, as functions of the three inputs.

  Before the matrix product: the two rows of the edge table, each with negative entries wrapped by the node count
  (`wrap`), laid side by side as (destination, source) pairs (`pairs`); the dense 10000 × 10000 matrix whose entry
  (n, k) adds up the weights of the edges with that pair (`dense`), padded with zeros to 10240 × 10240 (`lhs`); the
  features with the node axis first, flattened to 10000 × 256 and padded with 240 zero rows (`rhs`).
  After it: the first 10000 rows of the product, unflattened and transposed back (`tail`).
-/
import proofs.«401143_j89275190215328_2_alg».proof.Proof.Gen.KernelIdeal
import Idealize.ShloMosaic.PureOps.Ideal

noncomputable section

namespace Cert.KernelIdeal.Stages

open Cert.KernelIdeal Idealize.ShloMosaic
open Cert.KernelIdeal.Facts₀

/-- Row 0 of the edge table (the sources) and row 1 (the destinations), as vectors. -/
def row0 (ei : IVec S2x320000 32) : IVec S320000 32 :=
  shapeCast S320000 (extractStridedSlice S1x320000 ![0, 0] ei slices_S2x320000_S1x320000_0_0) shapeCasts_S1x320000_S320000
def row1 (ei : IVec S2x320000 32) : IVec S320000 32 :=
  shapeCast S320000 (extractStridedSlice S1x320000 ![1, 0] ei slices_S2x320000_S1x320000_1_0) shapeCasts_S1x320000_S320000

/-- A negative index counts from the end: 10000 is added to it. -/
def wrap (x : IVec S320000 32) : IVec S320000 32 :=
  select (cmpi .slt x (broadcastInDim S320000 ![] bcast_S_S320000 (constantI S_ 32 0#32)))
    (addi x (broadcastInDim S320000 ![] bcast_S_S320000 (constantI S_ 32 10000#32))) x

/-- The (destination, source) pair of each edge. -/
def pairs (ei : IVec S2x320000 32) : IVec S320000x2 32 :=
  concatenate S320000x2 1
    [⟨S320000x1, broadcastInDim S320000x1 ![0] bcast_S320000_S320000x1_0 (wrap (row1 ei))⟩,
     ⟨S320000x1, broadcastInDim S320000x1 ![0] bcast_S320000_S320000x1_0 (wrap (row0 ei))⟩]
    concatenates_S320000x1_S320000x1_S320000x2_d1

/-- The dense matrix of summed edge weights. -/
def dense (ei : IVec S2x320000 32) (w : FVec Ideal S320000 .f32) : FVec Ideal S10000x10000 .f32 :=
  Host.scatterAdd scatter_S10000x10000_S320000x2_S320000_n_01_01_1
    (broadcastInDim S10000x10000 ![] bcast_S_S10000x10000 (constant (F := Ideal) S_ .f32 0x00000000#32)) (pairs ei) w

/-- The left matrix of the product: the dense matrix padded with zeros. -/
def lhs (ei : IVec S2x320000 32) (w : FVec Ideal S320000 .f32) : FVec Ideal S10240x10240 .bf16 :=
  pad S10240x10240 ![0, 0] ![240, 240] ![0, 0] (truncf .bf16 (dense ei w) bitsLt_bf16_f32)
    (sitofp (F := Ideal) .bf16 (constantI S_ 32 0#32)) pads_S10000x10000_S10240x10240_02400_02400 h_S_

/-- The right matrix of the product: node-major flattened features padded with zero rows. -/
def rhs (V : FVec Ideal S8x8x10000x4 .f32) : FVec Ideal S10240x256 .bf16 :=
  pad S10240x256 ![0, 0] ![240, 0] ![0, 0]
    (truncf .bf16 (shapeCast S10000x256
      (transpose S10000x8x8x4 [2, 0, 1, 3] V transposes_S8x8x10000x4_S10000x8x8x4_2_0_1_3)
      shapeCasts_S10000x8x8x4_S10000x256) bitsLt_bf16_f32)
    (sitofp (F := Ideal) .bf16 (constantI S_ 32 0#32)) pads_S10000x256_S10240x256_02400_000 h_S_

/-- What the program does with the product: cut to 10000 rows, unflatten, transpose back. -/
def tail (O : FVec Ideal S10240x256 .f32) : FVec Ideal S8x8x10000x4 .f32 :=
  transpose S8x8x10000x4 [1, 2, 0, 3]
    (shapeCast S10000x8x8x4 (extractStridedSlice S10000x256 ![0, 0] O slices_S10240x256_S10000x256_0_0)
      shapeCasts_S10000x256_S10000x8x8x4)
    transposes_S10000x8x8x4_S8x8x10000x4_1_2_0_3

end Cert.KernelIdeal.Stages

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Product.lean ====
/-
  The matrix product the region computes.

  The region runs over 20 grid points; point `t` stages rows 512·t … 512·t+511 of the left matrix (all 10240 columns) and
  the whole right matrix (10240 × 256), multiplies them on the matrix unit into a zero accumulator, and writes the
  512 × 256 product back as rows 512·t … 512·t+511 of the result. So after the region the result array is the plain
  matrix product of the two arrays as the region found them: entry (r, c) is `∑ k, A (r, k) · B (k, c)`.
-/
import proofs.«401143_j89275190215328_2_alg».proof.Proof.Gen.KernelIdeal.Frame
import proofs.«401143_j89275190215328_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem off_zero : (![0, 0] : Fin 2 → Nat) = fun _ => 0 := funext fun a => by fin_cases a <;> rfl

/-- The plain product of a 10240 × 10240 matrix and a 10240 × 256 matrix, entry by entry. -/
def prod (A : S10240x10240.Idx → EReal) (B : S10240x256.Idx → EReal) : S10240x256.Idx → EReal :=
  fun i => ∑ k : Fin 10240, A (ix2 (i 0) k) * B (ix2 k (i 1))

/-- What the body leaves in the result's staging buffer, at entry (p, q): the product of row `p` of the staged left
    block with column `q` of the staged right matrix. -/
theorem out_entry (x0 : Vec Ideal S512x10240 .bf16) (x1 : Vec Ideal S10240x256 .bf16) (p : Fin 512) (q : Fin 256) :
    out0_2 x0 x1 (ix2 p q) = ∑ k : Fin 10240, x0 (ix2 p k) * x1 (ix2 k q) := by
  unfold out0_2
  rw [View.canon_unit_zero off_zero]
  simp only [View.ld_unit_zero (S := S512x10240) off_zero, View.ld_unit_zero (S := S10240x256) off_zero]
  unfold k0_pay1
  simp only [shapeCast_self]
  exact Cert.PlainMatmul.apply none x0 x1 p q

/-- The index maps over the grid: point `t` takes row block `t` of the left matrix and of the result, and the right
    matrix whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the two arrays as the region finds them. -/
theorem flushed_eq (c : Dev nD) (t : Fin cfg0.N) :
    (dats m 0 c).flushed 2 t
      = ((cfg0.win 2).blk t).view.read (Elt Ideal) (prod (V m c main_call0_v23) (V m c main_call0_v24)) := by
  show (cfg0.win 2).cut (grid0.coords t) ((dats m 0 c).after 2 t) = _
  rw [after0_2]
  obtain ⟨e0, e1, e2, e3, e4, e5⟩ := idx_facts t
  funext j
  show out0_2 (iblk m c 0 t) (iblk m c 1 t) j
    = prod (V m c main_call0_v23) (V m c main_call0_v24) (((cfg0.win 2).blk t).view.emb j)
  obtain ⟨p, q, rfl⟩ : ∃ (p : Fin 512) (q : Fin 256), j = ix2 p q := ⟨j 0, j 1, eq_ix2 j⟩
  refine (out_entry (iblk m c 0 t) (iblk m c 1 t) p q).trans ?_
  unfold prod
  refine Finset.sum_congr rfl fun k _ => ?_
  have hl : iblk m c 0 t (ix2 p k)
      = V m c main_call0_v23 (ix2 (((cfg0.win 2).blk t).view.emb (ix2 p q) 0) k) := by
    show V m c main_call0_v23 (((cfg0.win 0).blk t).view.emb (ix2 p k)) = _
    refine congrArg (V m c main_call0_v23) (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 10240 + 1 * k.val = k.val
      omega
  have hr : iblk m c 1 t (ix2 k q)
      = V m c main_call0_v24 (ix2 k (((cfg0.win 2).blk t).view.emb (ix2 p q) 1)) := by
    show V m c main_call0_v24 (((cfg0.win 1).blk t).view.emb (ix2 k q)) = _
    refine congrArg (V m c main_call0_v24) (funext fun a => Fin.ext ?_)
    match a with
    | ⟨0, _⟩ =>
      show win0_1.index t (0 : Fin 2) * 10240 + 1 * k.val = k.val
      omega
    | ⟨1, _⟩ =>
      show win0_1.index t (1 : Fin 2) * 256 + 1 * q.val = win0_2.index t (1 : Fin 2) * 256 + 1 * q.val
      omega
  rw [hl, hr]

/-- An index of the result array is in point `t`'s block iff each coordinate is in the block's range on its axis. -/
theorem mem_blk (t : Fin cfg0.N) (i : S10240x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_call0_v25).slice (win0_2.rect t)).set ↔ _
  rw [View.set_slice_whole, Rect.mem_set_unit]
  exact Iff.rfl

/-- Every index of the result array is in the block of the point that owns its row: point `row / 512`. -/
theorem cover (i : S10240x256.Idx) : ∃ t : Fin cfg0.N, (cfg0.win 2).flush t = true ∧ i ∈ ((cfg0.win 2).blk t).view.set := by
  have hi0 : (i 0).val < 10240 := (i 0).isLt
  have hi1 : (i 1).val < 256 := (i 1).isLt
  have hlt : (i 0).val / 512 < cfg0.N := by
    show _ < grid0.N
    rw [N_0]; omega
  refine ⟨⟨(i 0).val / 512, hlt⟩, flush0_2 _, ?_⟩
  rw [mem_blk]
  obtain ⟨e0, e1, e2, e3, e4, e5⟩ := idx_facts ⟨(i 0).val / 512, hlt⟩
  intro a
  match a with
  | ⟨0, _⟩ =>
    show win0_2.index _ (0 : Fin 2) * 512 ≤ (i 0).val ∧ (i 0).val < win0_2.index _ (0 : Fin 2) * 512 + 512
    rw [e4]
    show (i 0).val / 512 * 512 ≤ (i 0).val ∧ (i 0).val < (i 0).val / 512 * 512 + 512
    omega
  | ⟨1, _⟩ =>
    show win0_2.index _ (1 : Fin 2) * 256 ≤ (i 1).val ∧ (i 1).val < win0_2.index _ (1 : Fin 2) * 256 + 256
    rw [e5]
    omega

/-- THE RESULT ARRAY after the region: the product of the two arrays as the region found them. -/
theorem final (c : Dev nD) :
    (dats m 0 c).arrAt 2 cfg0.N = prod (V m c main_call0_v23) (V m c main_call0_v24) :=
  (dats m 0 c).arrAt_eq_of_cover 2 (prod (V m c main_call0_v23) (V m c main_call0_v24))
    (fun t _ => flushed_eq m c t) cover

end Cert.KernelIdeal.Product

end
-- ==== Proof.KernelRun.lean ====
/-
  The kernel program's run, read back: its result as a function of its inputs.

  Around the region the program is host operations: before it the padded matrices `lhs` and `rhs` are made from the
  inputs, after it the product is cut, unflattened and transposed (`tail`). The generated frame run states every array
  of the region after it and every other buffer after the trailing host operations; the region's result array is the
  matrix product of the two padded matrices, so the program's result is `tail (prod lhs rhs)` of the inputs.
-/
import proofs.«401143_j89275190215328_2_alg».proof.Proof.Gen.KernelIdeal.Frame
import proofs.«401143_j89275190215328_2_alg».proof.Proof.Stages
import proofs.«401143_j89275190215328_2_alg».proof.Proof.Product
import Idealize.ShloMosaic.Lib.Pipeline.Value
import Idealize.ShloMosaic.Lib.StableHlo.Run

set_option maxRecDepth 16384

noncomputable section

namespace Cert.KernelIdeal.KernelRun

open Cert.KernelIdeal Cert.KernelIdeal.Gen Cert.KernelIdeal.Stages Cert.KernelIdeal.Product
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 2000000 in
/-- The left matrix as the region finds it. -/
theorem V_lhs (c : Dev nD) :
    V m c main_call0_v23 = lhs (m ((c : Thread nD τ).loc main_arg1)) (m ((c : Thread nD τ).loc main_arg2)) := by
  show StableHlo.after hostOps0 (fun b => m (c, b)) (Proc.devRef .tc main_call0_v23) = _
  unfold lhs dense pairs wrap row0 row1
  after_results
  rfl

set_option maxHeartbeats 2000000 in
/-- The right matrix as the region finds it. -/
theorem V_rhs (c : Dev nD) :
    V m c main_call0_v24 = rhs (m ((c : Thread nD τ).loc main_arg0)) := by
  show StableHlo.after hostOps0 (fun b => m (c, b)) (Proc.devRef .tc main_call0_v24) = _
  unfold rhs
  after_results
  rfl

set_option maxHeartbeats 2000000 in
/-- The program's result after the trailing host operations, from the region's result array. -/
theorem tail_eq (c : Dev nD) :
    Pipeline.afterTail₀ cfgs (dats m) 0 (V0 m) [hostOps1] c main_v0 = tail ((dats m 0 c).arrAt 2 cfg0.N) := by
  have h : Pipeline.afterTail₀ cfgs (dats m) 0 (V0 m) [hostOps1] c main_v0
      = tail (Pipeline.withArrays (cfgs 0).spec c (V0 m c) (fun w => (dats m 0 c).arrAt w (cfgs 0).N)
          (Proc.devRef .tc (Pipeline.arrRef spec0 2))) := by
    unfold Pipeline.afterTail₀
    show StableHlo.after hostOps1 _ (Proc.devRef .tc main_v0) = _
    unfold tail
    after_results
    rfl
  rw [h, Pipeline.withArrays_arr spec0 launch0.win.arr_inj c _ _ 2]

/-- The kernel program's result as a function of its three inputs. -/
def result (V : FVec Ideal S8x8x10000x4 .f32) (ei : IVec S2x320000 32) (w : FVec Ideal S320000 .f32) :
    FVec Ideal S8x8x10000x4 .f32 :=
  tail (prod (lhs ei w) (rhs V))

/-- THE RUN: every weakly fair execution terminates with the result buffer at `result` of the inputs and the inputs
    unchanged. -/
theorem run : θ_run defs (onTc (τ := τ) (main (F := Ideal))) ⟨m, fun _ => 0, ρ⟩ (fun r => ∀ c : Dev nD,
      r.2.mem ((c.tc : Thread nD τ).loc main_v0)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v0 (Pipeline.mem_restRefs_of main_v0 (by decide) (by decide))).trans
        (by rw [tail_eq, Product.final, V_lhs, V_rhs]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.Dense.lean ====
/-
  The stages before the matrix product, read at an index.

  Row o of the edge table read as a vector has entry (o, e) of the table at e. An entry that is not negative is not
  wrapped. So, for a table whose entries all lie in [0, 10000), the pair of edge e is (entry (1, e), entry (0, e)):
  destination first, source second. The dense matrix starts from zero and adds, at (n, k), the weight of every edge whose
  pair is (n, k): its entry (n, k) is the sum of the weights of the edges with destination n and source k.
-/
import proofs.«401143_j89275190215328_2_alg».proof.Proof.Stages
import proofs.«401143_j89275190215328_2_alg».proof.Proof.LibRows4
import Idealize.ShloMosaic.Lib.Pipeline.Value
import Idealize.ShloMosaic.Lib.ValueIdx
import Idealize.ShloMosaic.Lib.IdealHost
import Idealize.ShloMosaic.Lib.Affine
import Idealize.ShloMosaic.PureOps.Ideal.Laws

noncomputable section

namespace Cert.KernelIdeal.Dense

open Cert.KernelIdeal Cert.KernelIdeal.Stages Idealize.ShloMosaic Idealize.ShloMosaic.ValueIdx
open Cert.KernelIdeal.Facts₀

/-- Row 0 of the edge table read as a vector: entry e of the row is entry (0, e) of the table. The row is the slice
    [0:1, 0:320000], a 1 × 320000 array, flattened: position e of the vector is position 0 · 320000 + e of the slice. -/
theorem row0_apply (ei : IVec S2x320000 32) (e : Fin 320000) : row0 ei (ix1 e) = ei (ix2 (0 : Fin 2) e) := by
  unfold row0
  refine (shapeCast_apply _ shapeCasts_S1x320000_S320000 (ix1 e) (ix2 (⟨0, Nat.one_pos⟩ : Fin 1) e) ?_).trans ?_
  · rewrite [Shape.rowMajor_val_two, Shape.rowMajor_val_one]
    show 0 * 320000 + e.val = e.val
    omega
  · exact extractStridedSlice_apply ![0, 0] ei slices_S2x320000_S1x320000_0_0 _ (ix2 (0 : Fin 2) e) (fun a => match a with
      | ⟨0, _⟩ => by show (0 : Nat) = 0 + 0; omega
      | ⟨1, _⟩ => by show e.val = 0 + e.val; omega)

/-- Row 1 of the edge table read as a vector: entry e of the row is entry (1, e) of the table. The row is the slice
    [1:2, 0:320000], flattened. -/
theorem row1_apply (ei : IVec S2x320000 32) (e : Fin 320000) : row1 ei (ix1 e) = ei (ix2 (1 : Fin 2) e) := by
  unfold row1
  refine (shapeCast_apply _ shapeCasts_S1x320000_S320000 (ix1 e) (ix2 (⟨0, Nat.one_pos⟩ : Fin 1) e) ?_).trans ?_
  · rewrite [Shape.rowMajor_val_two, Shape.rowMajor_val_one]
    show 0 * 320000 + e.val = e.val
    omega
  · exact extractStridedSlice_apply ![1, 0] ei slices_S2x320000_S1x320000_1_0 _ (ix2 (1 : Fin 2) e) (fun a => match a with
      | ⟨0, _⟩ => by show (1 : Nat) = 1 + 0; omega
      | ⟨1, _⟩ => by show e.val = 0 + e.val; omega)

/-- An index that is not negative is not wrapped: the comparison "x e < 0", read signed, fails, so the selection keeps
    x e and not x e + 10000. -/
theorem wrap_apply_of_nonneg (x : IVec S320000 32) (e : Fin 320000) (h : 0 ≤ (x (ix1 e)).toInt) : wrap x (ix1 e) = x (ix1 e) := by
  unfold wrap
  rw [select_apply]
  have hc : cmpi .slt x (broadcastInDim S320000 ![] bcast_S_S320000 (constantI S_ 32 0#32)) (ix1 e) = 0#1 := by
    apply eq_zero_of_ne_one
    intro h1
    have h2 : (x (ix1 e)).toInt < (broadcastInDim S320000 ![] bcast_S_S320000 (constantI S_ 32 0#32) (ix1 e)).toInt :=
      IntOp.cmpi_slt.mp h1
    rw [broadcastInDim_scalar_apply] at h2
    have h3 : (constantI S_ 32 0#32 ix0).toInt = 0 := by decide
    rw [h3] at h2
    omega
  rw [hc, select_zero]

/-- The first component of the pair of edge e is its destination, entry (1, e) of the table, when the entries are not
    negative: column 0 of the pairs is the first of the two columns laid side by side, the wrapped row 1 as a column. -/
theorem pairs_apply0 (ei : IVec S2x320000 32) (hr : ∀ i, 0 ≤ (ei i).toInt ∧ (ei i).toInt < 10000) (e : Fin 320000) :
    pairs ei (ix2 e ⟨0, Nat.succ_pos 1⟩) = ei (ix2 (1 : Fin 2) e) := by
  have h : 0 ≤ (row1 ei (ix1 e)).toInt := by rw [row1_apply]; exact (hr _).1
  unfold pairs
  refine (concatenate_pair_apply_left (1 : Fin S320000x2.rank) _ _ concatenates_S320000x1_S320000x1_S320000x2_d1
    (ix2 e ⟨0, Nat.succ_pos 1⟩) rfl (ix2 e (⟨0, Nat.one_pos⟩ : Fin 1)) (fun b => match b with
      | ⟨0, _⟩ => rfl
      | ⟨1, _⟩ => rfl)).trans ?_
  refine (broadcastInDim_apply _ bcast_S320000_S320000x1_0 _ _ (ix1 e) (fun a => match a with
    | ⟨0, _⟩ => by show e.val = if (320000 : Nat) = 1 then 0 else e.val; rw [if_neg (by decide)])).trans ?_
  rw [wrap_apply_of_nonneg _ e h, row1_apply]

/-- The second component of the pair of edge e is its source, entry (0, e) of the table, when the entries are not
    negative: column 1 of the pairs is past the first column's one entry, so it is column 1 − 1 = 0 of the second of the
    two columns laid side by side, the wrapped row 0 as a column. -/
theorem pairs_apply1 (ei : IVec S2x320000 32) (hr : ∀ i, 0 ≤ (ei i).toInt ∧ (ei i).toInt < 10000) (e : Fin 320000) :
    pairs ei (ix2 e ⟨1, Nat.lt_succ_self 1⟩) = ei (ix2 (0 : Fin 2) e) := by
  have h : 0 ≤ (row0 ei (ix1 e)).toInt := by rw [row0_apply]; exact (hr _).1
  unfold pairs
  refine (concatenate_pair_apply_right (1 : Fin S320000x2.rank) _ _ concatenates_S320000x1_S320000x1_S320000x2_d1
    (ix2 e ⟨1, Nat.lt_succ_self 1⟩) rfl rfl (ix2 e (⟨0, Nat.one_pos⟩ : Fin 1)) (fun b => match b with
      | ⟨0, _⟩ => fun _ => rfl
      | ⟨1, _⟩ => fun hne => absurd rfl hne) rfl).trans ?_
  refine (broadcastInDim_apply _ bcast_S320000_S320000x1_0 _ _ (ix1 e) (fun a => match a with
    | ⟨0, _⟩ => by show e.val = if (320000 : Nat) = 1 then 0 else e.val; rw [if_neg (by decide)])).trans ?_
  rw [wrap_apply_of_nonneg _ e h, row0_apply]

/-- THE DENSE MATRIX AT (n, k): the sum of the weights of the edges with destination n and source k. The matrix is the
    zero matrix with the weight of edge e added at the pair of e, for every e; at (n, k) that is 0 plus the sum of the
    weights of the edges whose pair is (n, k), and the pair of e is (entry (1, e), entry (0, e)) of the table. -/
theorem dense_apply (ei : IVec S2x320000 32) (w : FVec Ideal S320000 .f32)
    (hr : ∀ i, 0 ≤ (ei i).toInt ∧ (ei i).toInt < 10000) (n k : Fin 10000) :
    dense ei w (ix2 n k) = ∑ e : Fin 320000,
      if (ei (ix2 (1 : Fin 2) e)).toInt = (n.val : Int) ∧ (ei (ix2 (0 : Fin 2) e)).toInt = (k.val : Int) then w (ix1 e) else 0 := by
  have hd : scatter_S10000x10000_S320000x2_S320000_n_01_01_1
      = Rows4.scatterPairDims 10000 10000 320000 scatter_S10000x10000_S320000x2_S320000_n_01_01_1_wf := rfl
  rw [dense, Host.scatterAdd, Ideal.hostScatterAdd_def, hd, Rows4.scatterAdd_pairs_apply, broadcastInDim_scalar_apply,
    constant_apply, Ideal.ofBits_zero_f32, zero_add]
  refine Finset.sum_congr rfl fun e _ => ?_
  rw [pairs_apply0 ei hr e, pairs_apply1 ei hr e]

end Cert.KernelIdeal.Dense

end
-- ==== Proof.Layout.lean ====
/-
  The padded matrices and the program's last stage, read at an index.

  Node n is row n of the padded 10240-row matrices; the feature coordinates (b, t, d) of a node are flattened to the
  column (b·8 + t)·4 + d of the 256-column matrices. Row n of the left matrix is the dense matrix's row n followed by
  240 zeros; column (b, t, d) of the right matrix is that feature of every node followed by 240 zeros; the program's
  result at (b, t, n, d) is the product's entry at row n and column (b, t, d).
-/
import proofs.«401143_j89275190215328_2_alg».proof.Proof.Stages
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Layout

open Cert.KernelIdeal Cert.KernelIdeal.Stages Idealize.ShloMosaic Idealize.ShloMosaic.ValueIdx
open Cert.KernelIdeal.Facts₀

/-- Node n as a row of the padded matrices, and the flattened column of feature coordinates (b, t, d): (b·8 + t)·4 + d. -/
def row (n : Fin 10000) : Fin 10240 := ⟨n.val, by have := n.isLt; omega⟩
def col (b t : Fin 8) (d : Fin 4) : Fin 256 := ⟨(b.val * 8 + t.val) * 4 + d.val, by have := b.isLt; have := t.isLt; have := d.isLt; omega⟩

/-- The padding value, the integer zero converted, is zero. -/
theorem padValue_eq_zero :
    (sitofp (F := Ideal) .bf16 (constantI S_ 32 0#32)) (Shape.Idx.first h_S_) = 0 :=
  sitofp_zero

/-- Row n of the padded left matrix: the dense matrix's row n in the first 10000 columns, zero in the padding. -/
theorem lhs_apply (ei : IVec S2x320000 32) (w : FVec Ideal S320000 .f32) (n : Fin 10000) (k : Fin 10240) :
    lhs ei w (ix2 (row n) k) = if h : k.val < 10000 then dense ei w (ix2 n ⟨k.val, h⟩) else 0 := by
  unfold lhs
  by_cases h : k.val < 10000
  · -- inside the dense matrix on both axes: entry (n, k) of it, unchanged by the narrowing at the ideal instance
    rw [dif_pos h]
    refine (pad_apply_of_inside ![0, 0] ![240, 240] ![0, 0] _ _ pads_S10000x10000_S10240x10240_02400_02400 h_S_
      (ix2 (row n) k) (ix2 n (⟨k.val, h⟩ : Fin 10000)) (fun a => match a with
        | ⟨0, _⟩ => by show n.val = 0 + n.val * (0 + 1); omega
        | ⟨1, _⟩ => by show k.val = 0 + k.val * (0 + 1); omega)).trans ?_
    exact truncf_apply (ψ := .bf16) _ bitsLt_bf16_f32 _
  · -- past the dense matrix's last column: the padding value
    rw [dif_neg h]
    refine (pad_apply_of_not_inside (s := S10000x10000) (t := S10240x10240) ![0, 0] ![240, 240] ![0, 0] _ _ pads_S10000x10000_S10240x10240_02400_02400 h_S_
      (ix2 (row n) k) (1 : Fin 2) (fun hin => h ?_)).trans padValue_eq_zero
    have h3 : (k.val - 0) / 1 < 10000 := hin.2.2
    omega

/-- Column (b, t, d) of the padded right matrix: node k's feature there in the first 10000 rows, zero in the padding. -/
theorem rhs_apply (V : FVec Ideal S8x8x10000x4 .f32) (k : Fin 10240) (b t : Fin 8) (d : Fin 4) :
    rhs V (ix2 k (col b t d)) = if h : k.val < 10000 then V (ix4 b t ⟨k.val, h⟩ d) else 0 := by
  unfold rhs
  by_cases h : k.val < 10000
  · -- a node's row: the flattened matrix at (k, column), which is the node-major array at (k, b, t, d), which is V at (b, t, k, d)
    rw [dif_pos h]
    refine (pad_apply_of_inside ![0, 0] ![240, 0] ![0, 0] _ _ pads_S10000x256_S10240x256_02400_000 h_S_
      (ix2 k (col b t d)) (ix2 (⟨k.val, h⟩ : Fin 10000) (col b t d)) (fun a => match a with
        | ⟨0, _⟩ => by show k.val = 0 + k.val * (0 + 1); omega
        | ⟨1, _⟩ => by show (col b t d).val = 0 + (col b t d).val * (0 + 1); omega)).trans ?_
    refine (truncf_apply (ψ := .bf16) _ bitsLt_bf16_f32 _).trans ?_
    refine (shapeCast_apply _ shapeCasts_S10000x8x8x4_S10000x256 _ (ix4 (⟨k.val, h⟩ : Fin 10000) b t d) ?_).trans ?_
    · rewrite [Shape.rowMajor_val_four, Shape.rowMajor_val_two]
      show ((k.val * 8 + b.val) * 8 + t.val) * 4 + d.val = k.val * 256 + ((b.val * 8 + t.val) * 4 + d.val)
      omega
    · exact transpose_apply [2, 0, 1, 3] V transposes_S8x8x10000x4_S10000x8x8x4_2_0_1_3
        (ix4 (⟨k.val, h⟩ : Fin 10000) b t d) (ix4 b t (⟨k.val, h⟩ : Fin 10000) d) (fun c => match c with
          | ⟨0, _⟩ => rfl
          | ⟨1, _⟩ => rfl
          | ⟨2, _⟩ => rfl
          | ⟨3, _⟩ => rfl)
  · -- past the last node's row: the padding value
    rw [dif_neg h]
    refine (pad_apply_of_not_inside (s := S10000x256) (t := S10240x256) ![0, 0] ![240, 0] ![0, 0] _ _ pads_S10000x256_S10240x256_02400_000 h_S_
      (ix2 k (col b t d)) (0 : Fin 2) (fun hin => h ?_)).trans padValue_eq_zero
    have h3 : (k.val - 0) / 1 < 10000 := hin.2.2
    omega

/-- The program's result at (b, t, n, d) is the product's entry (row n, column (b, t, d)). -/
theorem tail_apply (O : FVec Ideal S10240x256 .f32) (b t : Fin 8) (n : Fin 10000) (d : Fin 4) :
    tail O (ix4 b t n d) = O (ix2 (row n) (col b t d)) := by
  unfold tail
  -- the transposed array at (b, t, n, d) is the node-major one at (n, b, t, d)
  refine (transpose_apply [1, 2, 0, 3] _ transposes_S10000x8x8x4_S8x8x10000x4_1_2_0_3
    (ix4 b t n d) (ix4 n b t d) (fun c => match c with
      | ⟨0, _⟩ => rfl
      | ⟨1, _⟩ => rfl
      | ⟨2, _⟩ => rfl
      | ⟨3, _⟩ => rfl)).trans ?_
  -- which is the 10000 × 256 matrix at (n, column)
  refine (shapeCast_apply _ shapeCasts_S10000x256_S10000x8x8x4 _ (ix2 n (col b t d)) ?_).trans ?_
  · rewrite [Shape.rowMajor_val_two, Shape.rowMajor_val_four]
    show n.val * 256 + ((b.val * 8 + t.val) * 4 + d.val) = ((n.val * 8 + b.val) * 8 + t.val) * 4 + d.val
    omega
  -- which is the product's first 10000 rows at that place
  exact extractStridedSlice_apply ![0, 0] O slices_S10240x256_S10000x256_0_0 (ix2 n (col b t d)) (ix2 (row n) (col b t d))
    (fun a => match a with
      | ⟨0, _⟩ => by show n.val = 0 + n.val; omega
      | ⟨1, _⟩ => by show (col b t d).val = 0 + (col b t d).val; omega)

end Cert.KernelIdeal.Layout

end
-- ==== Proof.KernelValue.lean ====
/-
  The kernel program's result is the specification's sum.

  At (b, t, n, d) the result is entry (n, (b, t, d)) of the product of the padded matrices: a sum over 10240 columns
  `k` of `lhs (n, k) · rhs (k, (b, t, d))`. In the 240 padding columns both factors are zero; in the first 10000 the left
  factor is the summed weight of the edges `k → n` and the right factor is node `k`'s feature. With every weight and
  feature a real number the product distributes over the sum of weights, and since each edge has one source the double
  sum over (k, e) collapses to the sum over the edges into `n` of `V[b, t, src e, d] · w[e]`.
-/
import proofs.«401143_j89275190215328_2_alg».proof.Proof.Spec
import proofs.«401143_j89275190215328_2_alg».proof.Proof.Stages
import proofs.«401143_j89275190215328_2_alg».proof.Proof.Product
import proofs.«401143_j89275190215328_2_alg».proof.Proof.Dense
import proofs.«401143_j89275190215328_2_alg».proof.Proof.Layout
import proofs.«401143_j89275190215328_2_alg».proof.Proof.LibIdealReal

noncomputable section

namespace Cert.KernelIdeal.KernelValue

open Cert.KernelIdeal Cert.KernelIdeal.Stages Cert.KernelIdeal.Layout Cert.KernelIdeal.Product
open Idealize.ShloMosaic Idealize.ShloMosaic.ValueIdx Cert.Spec

/-- With the source entry a node number, "the source entry is `k`" says the edge's source node is `k`. -/
theorem src_eq_iff (ei : IVec S2x320000 32) (hr : ∀ i, 0 ≤ (ei i).toInt ∧ (ei i).toInt < 10000) (e : Fin 320000)
    (k : Fin 10000) : (ei (ix2 (0 : Fin 2) e)).toInt = (k.val : Int) ↔ src ei e = k := by
  have h := hr (ix2 (0 : Fin 2) e)
  have hk := k.isLt
  unfold src
  rw [Fin.ext_iff]
  show _ ↔ min (ei (ix2 (0 : Fin 2) e)).toInt.toNat 9999 = k.val
  omega

/-- THE DENSE FORM IS THE EDGE FORM, over real weights and features. -/
theorem dense_eq_G (V : FVec Ideal S8x8x10000x4 .f32) (ei : IVec S2x320000 32) (w : FVec Ideal S320000 .f32)
    (hV : ∀ i, ∃ r : ℝ, V i = (r : EReal)) (hw : ∀ i, ∃ r : ℝ, w i = (r : EReal))
    (hr : ∀ i, 0 ≤ (ei i).toInt ∧ (ei i).toInt < 10000) (b t : Fin 8) (n : Fin 10000) (d : Fin 4) :
    ∑ k : Fin 10000, (∑ e : Fin 320000,
        if (ei (ix2 (1 : Fin 2) e)).toInt = (n.val : Int) ∧ (ei (ix2 (0 : Fin 2) e)).toInt = (k.val : Int)
        then w (ix1 e) else 0) * V (ix4 b t k d)
      = G V ei w (ix4 b t n d) := by
  choose wr hwr using hw
  choose Vr hVr using hV
  have hL : ∀ k : Fin 10000, (∑ e : Fin 320000,
        if (ei (ix2 (1 : Fin 2) e)).toInt = (n.val : Int) ∧ (ei (ix2 (0 : Fin 2) e)).toInt = (k.val : Int)
        then w (ix1 e) else 0) * V (ix4 b t k d)
      = (((∑ e : Fin 320000, if dst ei e = (n.val : Int) ∧ src ei e = k then wr (ix1 e) else 0)
          * Vr (ix4 b t k d) : ℝ) : EReal) := by
    intro k
    have h1 : (∑ e : Fin 320000,
        if (ei (ix2 (1 : Fin 2) e)).toInt = (n.val : Int) ∧ (ei (ix2 (0 : Fin 2) e)).toInt = (k.val : Int)
        then w (ix1 e) else 0)
        = (((∑ e : Fin 320000, if dst ei e = (n.val : Int) ∧ src ei e = k then wr (ix1 e) else 0) : ℝ) : EReal) := by
      rw [IdealReal.coe_sum]
      refine Finset.sum_congr rfl fun e _ => ?_
      rw [hwr, coe_ite]
      exact congrArg _ (if_congr (and_congr Iff.rfl (src_eq_iff ei hr e k)) rfl rfl)
    rw [h1, hVr, ← EReal.coe_mul]
  have hR : G V ei w (ix4 b t n d)
      = ((∑ e : Fin 320000, if dst ei e = (n.val : Int) then Vr (ix4 b t (src ei e) d) * wr (ix1 e) else 0 : ℝ) : EReal) := by
    unfold G
    rw [IdealReal.coe_sum]
    refine Finset.sum_congr rfl fun e _ => ?_
    show (if dst ei e = (n.val : Int) then V (ix4 b t (src ei e) d) * w (ix1 e) else 0) = _
    rw [hVr, hwr, ← EReal.coe_mul, coe_ite]
  rw [Finset.sum_congr rfl (fun k _ => hL k), ← IdealReal.coe_sum, hR]
  exact congrArg _ (sum_dense_eq_sum_edges (fun e => wr (ix1 e)) (fun k => Vr (ix4 b t k d)) (src ei)
    (fun e => dst ei e = (n.val : Int)))

/-- THE KERNEL PROGRAM'S RESULT is the specification's sum, under the precondition's facts. -/
theorem result_eq (V : FVec Ideal S8x8x10000x4 .f32) (ei : IVec S2x320000 32) (w : FVec Ideal S320000 .f32)
    (hV : ∀ i, ∃ r : ℝ, V i = (r : EReal)) (hw : ∀ i, ∃ r : ℝ, w i = (r : EReal))
    (hr : ∀ i, 0 ≤ (ei i).toInt ∧ (ei i).toInt < 10000) :
    tail (prod (lhs ei w) (rhs V)) = G V ei w := by
  funext i
  obtain ⟨b, t, n, d, rfl⟩ : ∃ (b : Fin 8) (t : Fin 8) (n : Fin 10000) (d : Fin 4), i = ix4 b t n d :=
    ⟨i 0, i 1, i 2, i 3, eq_ix4 i⟩
  rw [tail_apply]
  show ∑ k : Fin 10240, lhs ei w (ix2 (row n) k) * rhs V (ix2 k (col b t d)) = _
  have hterm : ∀ k : Fin 10240, lhs ei w (ix2 (row n) k) * rhs V (ix2 k (col b t d))
      = if h : k.val < 10000 then dense ei w (ix2 n ⟨k.val, h⟩) * V (ix4 b t ⟨k.val, h⟩ d) else 0 := by
    intro k
    rw [lhs_apply, rhs_apply]
    by_cases h : k.val < 10000
    · rw [dif_pos h, dif_pos h, dif_pos h]
    · rw [dif_neg h, dif_neg h, dif_neg h, zero_mul]
  rw [Finset.sum_congr rfl (fun k _ => hterm k),
    sum_fin_dite_lt (by decide : 10000 ≤ 10240) (fun k : Fin 10000 => dense ei w (ix2 n k) * V (ix4 b t k d)),
    Finset.sum_congr rfl (fun k _ => by rw [Dense.dense_apply ei w hr n k])]
  exact dense_eq_G V ei w hV hw hr b t n d

end Cert.KernelIdeal.KernelValue

end
-- ==== Proof.lean ====
/-
  Message passing on a graph: for every node `n`, the sum over the edges `e` into `n` of the source node's feature
  row times the edge weight — `out[b, t, n, d] = ∑ e with dst e = n, V[b, t, src e, d] · w[e]` (Proof/Spec.lean, `G`).

  The reference computes the sum edge by edge: a row gather, a multiply, a segment sum (Proof/RefValue.lean). The kernel
  program first accumulates the weights into a dense 10000 × 10000 matrix, A[n, k] = ∑ e with (dst e, src e) = (n, k), w[e],
  pads it and the node-major features with zeros to a multiple of the tile, and multiplies them on the matrix unit, 512
  rows of the result per grid point (Proof/Product.lean: the region's result array is the plain matrix product;
  Proof/KernelRun.lean: the program's result is that product cut, unflattened and transposed). Over the extended reals the
  two agree when the weights and features are real numbers — a product then distributes over the sum of weights, and
  each edge has one source (Proof/KernelValue.lean) — and when the entries of the edge table are node numbers: on an
  out-of-range entry the two programs treat it differently (a negative destination is wrapped by the scatter into the
  dense matrix and dropped by the segment sum; a source past the end is dropped by the first and clamped by the gather),
  so the precondition states the range, and Proof/PreFacts.lean reads it and the finiteness back out of the printed
  predicate.

  The three frames are the generated ones (the reference's is its generated run with the result dropped); the ideal pass
  rewrote nothing, so `preserves` is trivial.
-/
import proofs.«401143_j89275190215328_2_alg».proof.Defs
import proofs.«401143_j89275190215328_2_alg».proof.Proof.Gen.Kernel
import proofs.«401143_j89275190215328_2_alg».proof.Proof.Gen.Kernel.Frame
import proofs.«401143_j89275190215328_2_alg».proof.Proof.Gen.KernelIdeal
import proofs.«401143_j89275190215328_2_alg».proof.Proof.Gen.KernelIdeal.Frame
import proofs.«401143_j89275190215328_2_alg».proof.Proof.Gen.ReferenceIdeal
import proofs.«401143_j89275190215328_2_alg».proof.Proof.Gen.Pre_finite_inputs
import proofs.«401143_j89275190215328_2_alg».proof.Proof.Gen.ReferenceIdeal.Run
import proofs.«401143_j89275190215328_2_alg».proof.Proof.Gen.ReferenceIdeal.Read
import proofs.«401143_j89275190215328_2_alg».proof.Proof.PreFacts
import proofs.«401143_j89275190215328_2_alg».proof.Proof.RefValue
import proofs.«401143_j89275190215328_2_alg».proof.Proof.KernelRun
import proofs.«401143_j89275190215328_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's sum of the (agreeing) inputs: the kernel program by its run and
    `KernelValue.result_eq`, the reference by its generated run and `RefValue.result_eq`, each under the facts the
    precondition gives. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KernelRun.run m ρ)
    obtain ⟨hV, hw, hr⟩ := Cert.PreFacts.of_pre _ _ _ (hpre c)
    exact Cert.KernelIdeal.KernelValue.result_eq _ _ _ hV hw hr
  · refine (θ_run Cert.ReferenceIdeal.defs _ _).mono (fun _ h c => ⟨(h c).1.trans ?_, (h c).2⟩)
      (Cert.ReferenceIdeal.Value.run (F := Ideal) m' ρ')
    obtain ⟨hV, hw, hr⟩ := Cert.PreFacts.of_pre _ _ _ (hpre c)
    rw [Cert.ReferenceIdeal.Read.val_main_v18_eq, (hagree c).1, (hagree c).2.1, (hagree c).2.2]
    exact Cert.ReferenceIdeal.RefValue.result_eq _ _ _ hr

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
